-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000x16 : Shape := ⟨2, ![1000000, 16]⟩
abbrev S64x80 : Shape := ⟨2, ![64, 80]⟩
abbrev S64 : Shape := ⟨1, ![64]⟩
abbrev S_ : Shape := ⟨0, ![]⟩
abbrev S1x1000000 : Shape := ⟨2, ![1, 1000000]⟩
abbrev S1000000 : Shape := ⟨1, ![1000000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S64x80 : S_.BroadcastsInDim S64x80 (![] : Fin 0 → Fin S64x80.rank)
  reducesTo_S64x80_S_d0_1 : S64x80.ReducesTo [0, 1] S_
  bcast_S_S64 : S_.BroadcastsInDim S64 (![] : Fin 0 → Fin S64.rank)
  reducesTo_S64_S_d0 : S64.ReducesTo [0] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_v28 : IVec S_ 1) (main_v32 : IVec S1000000 1) (main_v34 : IVec S1000000 32) : IVec S_ 1 :=
  let main_c_11 : IVec S_ 32 := constantI S_ 32 100000#32
  let main_v35 : IVec S1000000 32 := broadcastInDim S1000000 ![] bcast_S_S1000000 main_c_11
  let main_v36 : IVec S1000000 1 := cmpi .slt main_v34 main_v35
  let main_v37 : IVec S1000000 1 := andi main_v32 main_v36
  let main_c_12 : IVec S_ 1 := constantI S_ 1 1#1
  let main_v38 : IVec S_ 1 := (fun x v => Host.reduce IntOp.andi x v reducesTo_S1000000_S_d0 h_S_) main_v37 main_c_12
  let main_v39 : IVec S_ 1 := andi main_v28 main_v38
  main_v39

def fn_part1 {F : FTy → Type} [FloatOps F] (main_arg1 : IVec S2x1000000 32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x1000000 32 := (extractStridedSlice S1x1000000 ![0, 0] · slices_S2x1000000_S1x1000000_0_0) main_arg1
  let main_v30 : IVec S1000000 32 := shapeCast S1000000 main_v29 shapeCasts_S1x1000000_S1000000
  let main_c_10 : IVec S_ 32 := constantI S_ 32 0#32
  let main_v31 : IVec S1000000 32 := broadcastInDim S1000000 ![] bcast_S_S1000000 main_c_10
  let main_v32 : IVec S1000000 1 := cmpi .sge main_v30 main_v31
  let main_v33 : IVec S1x1000000 32 := (extractStridedSlice S1x1000000 ![0, 0] · slices_S2x1000000_S1x1000000_0_0) main_arg1
  let main_v34 : IVec S1000000 32 := shapeCast S1000000 main_v33 shapeCasts_S1x1000000_S1000000
  fn_part2 (F := F) main_v28 main_v32 main_v34

def fn {F : FTy → Type} [FloatOps F] (main_arg0 : FVec F S100000x64 .f32) (main_arg1 : IVec S2x1000000 32) (main_arg2 : FVec F S1000000x16 .f32) (main_arg3 : FVec F S64x80 .f32) (main_arg4 : FVec F S64 .f32) (main_arg5 : FVec F S64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S64x80 .f32 := Host.absf main_arg3
  let main_cst_2 : FVec F S_ .f32 := constant S_ .f32 0x7F800000#32
  let main_v10 : FVec F S64x80 .f32 := broadcastInDim S64x80 ![] bcast_S_S64x80 main_cst_2
  let main_v11 : IVec S64x80 1 := cmpf .olt main_v9 main_v10
  let main_c_3 : IVec S_ 1 := constantI S_ 1 1#1
  let main_v12 : IVec S_ 1 := (fun x v => Host.reduce IntOp.andi x v reducesTo_S64x80_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S100000x64 : Shape := ⟨2, ![100000, 64]⟩
abbrev S2x1000000 : Shape := ⟨2, ![2, 1000000]⟩
abbrev S1000000x16 : Shape := ⟨2, ![1000000, 16]⟩
abbrev S64x80 : Shape := ⟨2, ![64, 80]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S64x64 : Shape := ⟨2, ![64, 64]⟩
abbrev S64x16 : Shape := ⟨2, ![64, 16]⟩
abbrev S16x64 : Shape := ⟨2, ![16, 64]⟩
abbrev S1x64 : Shape := ⟨2, ![1, 64]⟩
abbrev S10000x64 : Shape := ⟨2, ![10000, 64]⟩
abbrev S10000x16 : Shape := ⟨2, ![10000, 16]⟩
abbrev S100000 : Shape := ⟨1, ![100000]⟩
abbrev S100000x1 : Shape := ⟨2, ![100000, 1]⟩

abbrev nBuf : Space → Nat
  | .hbm => 80
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x16, .f32⟩
  | .hbm, ⟨3, _⟩ => ⟨S64x80, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1, .i32⟩
  | .hbm, ⟨20, _⟩ => ⟨S_, .i32⟩
  | .hbm, ⟨21, _⟩ => ⟨S1000000x1, .i32⟩
  | .hbm, ⟨22, _⟩ => ⟨S1000000x1, .i1⟩
  | .hbm, ⟨23, _⟩ => ⟨S1x1, .i32⟩
  | .hbm, ⟨24, _⟩ => ⟨S1000000x1, .i32⟩
  | .hbm, ⟨25, _⟩ => ⟨S1000000x1, .i1⟩
  | .hbm, ⟨26, _⟩ => ⟨S1000000x1, .i1⟩
  | .hbm, ⟨27, _⟩ => ⟨S_, .i1⟩
  | .hbm, ⟨28, _⟩ => ⟨S1000000, .i1⟩
  | .hbm, ⟨29, _⟩ => ⟨S1000000x64, .f32⟩
  | .hbm, ⟨30, _⟩ => ⟨S1000000x64, .i1⟩
  | .hbm, ⟨31, _⟩ => ⟨S_, .f32⟩
  | .hbm, ⟨32, _⟩ => ⟨S1000000x64, .f32⟩
  | .hbm, ⟨33, _⟩ => ⟨S1000000x64, .f32⟩
  | .hbm, ⟨34, _⟩ => ⟨S_, .f32⟩
  | .hbm, ⟨35, _⟩ => ⟨S1000000x16, .f32⟩
  | .hbm, ⟨36, _⟩ => ⟨S1000000x16, .f32⟩
  | .hbm, ⟨37, _⟩ => ⟨S64x64, .f32⟩
  | .hbm, ⟨38, _⟩ => ⟨S64x64, .f32⟩
  | .hbm, ⟨39, _⟩ => ⟨S64x16, .f32⟩
  | .hbm, ⟨40, _⟩ => ⟨S16x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S1000000x64, .f32⟩
  | .hbm, ⟨63, _⟩ => ⟨S_, .f32⟩
  | .hbm, ⟨64, _⟩ => ⟨S100000x64, .f32⟩
  | .hbm, ⟨65, _⟩ => ⟨S1000000x1, .i32⟩
  | .hbm, ⟨66, _⟩ => ⟨S100000x64, .f32⟩
  | .hbm, ⟨67, _⟩ => ⟨S_, .f32⟩
  | .hbm, ⟨68, _⟩ => ⟨S1000000, .f32⟩
  | .hbm, ⟨69, _⟩ => ⟨S_, .f32⟩
  | .hbm, ⟨70, _⟩ => ⟨S100000, .f32⟩
  | .hbm, ⟨71, _⟩ => ⟨S1000000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x16, .f32⟩
  | .local _ .vmem, ⟨3, _⟩ => ⟨S10000x16, .f32⟩
  | .local _ .vmem, ⟨4, _⟩ => ⟨S64x64, .f32⟩
  | .local _ .vmem, ⟨5, _⟩ => ⟨S16x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x16, .f32⟩
  | .local _ .vmem, ⟨12, _⟩ => ⟨S10000x16, .f32⟩
  | .local _ .vmem, ⟨13, _⟩ => ⟨S64x64, .f32⟩
  | .local _ .vmem, ⟨14, _⟩ => ⟨S16x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12_0 : Ref sig .tc := ⟨.hbm, 42, rfl⟩
abbrev main_v12_1 : Ref sig .tc := ⟨.hbm, 43, rfl⟩
abbrev main_v13 : Ref sig .tc := ⟨.hbm, 44, rfl⟩
abbrev main_cst_0 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_2 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_4 : Ref sig .tc := ⟨.hbm, 67, rfl⟩
abbrev main_v32 : Ref sig .tc := ⟨.hbm, 68, rfl⟩
abbrev main_cst_5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_6 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S1000000x16 : S_.BroadcastsInDim S1000000x16 (![] : Fin 0 → Fin S1000000x16.rank)
  slices_S64x80_S64x64_0_0 : S64x80.Slices ![0, 0] S64x64
  transposes_S64x64_S64x64_1_0 : S64x64.Transposes [1, 0] S64x64
  slices_S64x80_S64x16_0_64 : S64x80.Slices ![0, 64] S64x16
  transposes_S64x16_S16x64_1_0 : S64x16.Transposes [1, 0] S16x64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  shapeCasts_S1x64_S1x64 : S1x64.ShapeCasts S1x64
  broadcasts_S1x64_S10000x64 : S1x64.Broadcasts S10000x64
  reduces_S10000x64_S64 : S10000x64.Reduces [0] S64
  shapeCasts_S1x64_S64 : S1x64.ShapeCasts S64
  bcast_S_S64 : S_.BroadcastsInDim S64 (![] : Fin 0 → Fin S64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S10000x64_S64x64_S10000x64_1_0_0_1_n_n_wf : DotDims.WF S10000x64 S64x64 S10000x64 [1] [0] [0] [1] [] []
  dot_S10000x16_S16x64_S10000x64_1_0_0_1_n_n_wf : DotDims.WF S10000x16 S16x64 S10000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S1000000x16.size a
  hwx0_1 : ∀ i : grid0.Coords, EltTy.bits .f32 = 32 ∨ (Rect.block (s := S1000000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S1000000x16.size a
  hwx1_1 : ∀ i : grid1.Coords, EltTy.bits .f32 = 32 ∨ (Rect.block (s := S1000000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S1000000x64.size a
  hwx1_9 : ∀ i : grid1.Coords, EltTy.bits .f32 = 32 ∨ (Rect.block (s := S1000000x64) S10000x64.size (cc1_transform_9 i) (hinb1_9 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

abbrev win0_0 : Pipeline.Window sig grid0 :=
  Pipeline.Window.ofSpec (Memref.whole main_v4) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000x16 : Shape := ⟨2, ![1000000, 16]⟩
abbrev S64x80 : Shape := ⟨2, ![64, 80]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x80 : Shape := ⟨2, ![1000000, 80]⟩
abbrev S80x64 : Shape := ⟨2, ![80, 64]⟩
abbrev S1x64 : Shape := ⟨2, ![1, 64]⟩
abbrev S100000 : Shape := ⟨1, ![100000]⟩
abbrev S100000x1 : Shape := ⟨2, ![100000, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x16, .f32⟩
  | .hbm, ⟨3, _⟩ => ⟨S64x80, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .f32⟩
  | .hbm, ⟨12, _⟩ => ⟨S1000000x16, .f32⟩
  | .hbm, ⟨13, _⟩ => ⟨S1000000x16, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S1000000x80, .f32⟩
  | .hbm, ⟨24, _⟩ => ⟨S80x64, .f32⟩
  | .hbm, ⟨25, _⟩ => ⟨S1000000x64, .f32⟩
  | .hbm, ⟨26, _⟩ => ⟨S1x64, .f32⟩
  | .hbm, ⟨27, _⟩ => ⟨S1000000x64, .f32⟩
  | .hbm, ⟨28, _⟩ => ⟨S1000000x64, .f32⟩
  | .hbm, ⟨29, _⟩ => ⟨S_, .f32⟩
  | .hbm, ⟨30, _⟩ => ⟨S1000000x64, .f32⟩
  | .hbm, ⟨31, _⟩ => ⟨S1000000x64, .f32⟩
  | .hbm, ⟨32, _⟩ => ⟨S_, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S1x64, .f32⟩
  | .hbm, ⟨38, _⟩ => ⟨S1000000x64, .f32⟩
  | .hbm, ⟨39, _⟩ => ⟨S1000000x64, .f32⟩
  | .hbm, ⟨40, _⟩ => ⟨S1000000x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S1x64, .f32⟩
  | .hbm, ⟨47, _⟩ => ⟨S1000000x64, .f32⟩
  | .hbm, ⟨48, _⟩ => ⟨S1000000x64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S1x64, .f32⟩
  | .hbm, ⟨54, _⟩ => ⟨S1000000x64, .f32⟩
  | .hbm, ⟨55, _⟩ => ⟨S1000000x64, .f32⟩
  | .hbm, ⟨56, _⟩ => ⟨S1x64, .f32⟩
  | .hbm, ⟨57, _⟩ => ⟨S1000000x64, .f32⟩
  | .hbm, ⟨58, _⟩ => ⟨S1000000x64, .f32⟩
  | .hbm, ⟨59, _⟩ => ⟨S1x64, .f32⟩
  | .hbm, ⟨60, _⟩ => ⟨S1000000x64, .f32⟩
  | .hbm, ⟨61, _⟩ => ⟨S1000000x64, .f32⟩
  | .hbm, ⟨62, _⟩ => ⟨S_, .f32⟩
  | .hbm, ⟨63, _⟩ => ⟨S100000x64, .f32⟩
  | .hbm, ⟨64, _⟩ => ⟨S1000000x1, .i32⟩
  | .hbm, ⟨65, _⟩ => ⟨S100000x64, .f32⟩
  | .hbm, ⟨66, _⟩ => ⟨S_, .f32⟩
  | .hbm, ⟨67, _⟩ => ⟨S1000000, .f32⟩
  | .hbm, ⟨68, _⟩ => ⟨S_, .f32⟩
  | .hbm, ⟨69, _⟩ => ⟨S100000, .f32⟩
  | .hbm, ⟨70, _⟩ => ⟨S1000000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000x16 : S_.BroadcastsInDim S1000000x16 (![] : Fin 0 → Fin S1000000x16.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x16_S1000000x80_d1 : Shape.Concatenates [S1000000x64, S1000000x16] S1000000x80 1
  transposes_S64x80_S80x64_1_0 : S64x80.Transposes [1, 0] S80x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  reducesTo_S1000000x64_S64_d0 : S1000000x64.ReducesTo [0] S64
  h_S_ : 0 < S_.numel
  bcast_S_S64 : S_.BroadcastsInDim S64 (![] : Fin 0 → Fin S64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x80_S80x64_S1000000x64_1_0_0_1_n_n_wf : DotDims.WF S1000000x80 S80x64 S1000000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x80_S80x64_S1000000x64_1_0_0_1_n_n : DotDims S1000000x80 S80x64 S1000000x64 where
  lhsContracting := [1]
  rhsContracting := [0]
  lhsNonContracting := [0]
  rhsNonContracting := [1]
  lhsBatch := []
  rhsBatch := []
  wf := dot_S1000000x80_S80x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

class Facts : Prop extends Facts₀ where

variable [Facts]
-- ==== Proof.HostDefs.lean ====
/-
  The host-side stages of the idealized kernel program, each as one whole-array function of its operands:
  the two index rows of the edge list, the wrapped gather index, the gathered rows with and without the
  out-of-range fill, the scaled edge features, the two transposed weight panels, the statistics turned into
  mean and reciprocal deviation, and the closing scatter-mean with the residual.
-/
import proofs.«410390_j38027640438917_1_alg».proof.KernelIdeal
import proofs.«410390_j38027640438917_1_alg».proof.Proof.Gen.KernelIdeal
import Idealize.ShloMosaic.PureOps.Ideal

noncomputable section

namespace Cert.KernelIdeal.HostDefs

open Idealize.ShloMosaic Cert.KernelIdeal Cert.KernelIdeal.Facts₀ Cert.KernelIdeal.Facts

/-- Source node of every edge: row 0 of the edge list. -/
def rowOf (ei : IVec S2x1000000 32) : IVec S1000000 32 :=
  shapeCast S1000000 (extractStridedSlice S1x1000000 ![0, 0] ei slices_S2x1000000_S1x1000000_0_0) shapeCasts_S1x1000000_S1000000
/-- Destination node of every edge: row 1 of the edge list. -/
def colOf (ei : IVec S2x1000000 32) : IVec S1000000 32 :=
  shapeCast S1000000 (extractStridedSlice S1x1000000 ![1, 0] ei slices_S2x1000000_S1x1000000_1_0) shapeCasts_S1x1000000_S1000000
/-- A negative index wrapped once by the node count, as an index column. -/
def wrapIdx (r : IVec S1000000 32) : IVec S1000000x1 32 :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 100000#32))) r)
/-- The node rows gathered along the (wrapped) index column. -/
def gath (x : FVec Ideal S100000x64 .f32) (r : IVec S1000000 32) : FVec Ideal S1000000x64 .f32 :=
  Host.gather gather_S100000x64_S1000000x1_S1000000x64_1_0_n_n_0_1_164 x (wrapIdx r)
/-- The in-range mask of an index column, spread over the 64 channels. -/
def inb (i5 : IVec S1000000x1 32) : IVec S1000000x64 1 :=
  broadcastInDim S1000000x64 ![0] bcast_S1000000_S1000000x64_0
    (Host.reduce IntOp.andi
      (andi (cmpi .sge i5 (broadcastInDim S1000000x1 ![] bcast_S_S1000000x1 (constantI S_ 32 0#32)))
        (cmpi .sle i5 (broadcastInDim S1000000x1 ![0, 1] bcast_S1x1_S1000000x1_0_1
          (broadcastInDim S1x1 ![1] bcast_S1_S1x1_1 (constantI S1 32 99999#32)))))
      (constantI S_ 1 1#1) reducesTo_S1000000x1_S1000000_d1 h_S_)
/-- The kernel program's gathered rows: out-of-range rows replaced by the fill word. -/
def atomK (x : FVec Ideal S100000x64 .f32) (r : IVec S1000000 32) : FVec Ideal S1000000x64 .f32 :=
  select (inb (wrapIdx r)) (gath x r)
    (broadcastInDim S1000000x64 ![] bcast_S_S1000000x64 (constant (F := Ideal) S_ .f32 0x7FC00000#32))
/-- The edge features times the importance 1. -/
def efeat (ea : FVec Ideal S1000000x16 .f32) : FVec Ideal S1000000x16 .f32 :=
  mulf ea (broadcastInDim S1000000x16 ![] bcast_S_S1000000x16 (constant (F := Ideal) S_ .f32 0x3F800000#32))
/-- The node-feature panel of the weight, transposed. -/
def w1t (W : FVec Ideal S64x80 .f32) : FVec Ideal S64x64 .f32 :=
  transpose S64x64 [1, 0] (extractStridedSlice S64x64 ![0, 0] W slices_S64x80_S64x64_0_0) transposes_S64x64_S64x64_1_0
/-- The edge-feature panel of the weight, transposed. -/
def w2t (W : FVec Ideal S64x80 .f32) : FVec Ideal S16x64 .f32 :=
  transpose S16x64 [1, 0] (extractStridedSlice S64x16 ![0, 64] W slices_S64x80_S64x16_0_64) transposes_S64x16_S16x64_1_0
/-- A channel vector as a one-row matrix. -/
def row1 (v : FVec Ideal S64 .f32) : FVec Ideal S1x64 .f32 := shapeCast S1x64 v shapeCasts_S64_S1x64
/-- A one-row matrix as a channel vector. -/
def flat1 (v : FVec Ideal S1x64 .f32) : FVec Ideal S64 .f32 := shapeCast S64 v shapeCasts_S1x64_S64
/-- The edge count on every channel. -/
def cnt64 : FVec Ideal S64 .f32 := broadcastInDim S64 ![] bcast_S_S64 (constant (F := Ideal) S_ .f32 0x49742400#32)
/-- The mean from the column sums. -/
def meanV (s1 : FVec Ideal S1x64 .f32) : FVec Ideal S64 .f32 := Host.divf (F := Ideal) (flat1 s1) cnt64
/-- The reciprocal deviation from the two column sums. -/
def istdV (s1 s2 : FVec Ideal S1x64 .f32) : FVec Ideal S64 .f32 :=
  Host.rsqrt (F := Ideal) (addf (subf (Host.divf (F := Ideal) (flat1 s2) cnt64) (mulf (meanV s1) (meanV s1)))
    (broadcastInDim S64 ![] bcast_S_S64 (constant (F := Ideal) S_ .f32 0x3727C5AC#32)))
/-- The scatter-mean over destination nodes plus the residual: the closing stretch, shared by both programs. -/
def tail (x : FVec Ideal S100000x64 .f32) (col : IVec S1000000 32) (un : FVec Ideal S1000000x64 .f32) : FVec Ideal S100000x64 .f32 :=
  addf (Host.divf (F := Ideal)
    (Host.scatterAdd (F := Ideal) scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 col) un)
    (broadcastInDim S100000x64 ![0, 1] bcast_S100000x1_S100000x64_0_1
      (broadcastInDim S100000x1 ![0] bcast_S100000_S100000x1_0
        (maximumf
          (Host.scatterAdd (F := Ideal) scatter_S100000_S1000000x1_S1000000_n_0_0_1
            (broadcastInDim S100000 ![] bcast_S_S100000 (constant (F := Ideal) S_ .f32 0x00000000#32))
            (broadcastInDim S1000000x1 ![0] bcast_S1000000_S1000000x1_0 col)
            (broadcastInDim S1000000 ![] bcast_S_S1000000 (constant (F := Ideal) S_ .f32 0x3F800000#32)))
          (broadcastInDim S100000 ![] bcast_S_S100000 (constant (F := Ideal) S_ .f32 0x3F800000#32))))))
    x

end Cert.KernelIdeal.HostDefs

end
-- ==== Proof.HostK.lean ====
/-
  The idealized kernel program's buffers at the boundaries of its run, as the host stages of the launch memory.
-/
import proofs.«410390_j38027640438917_1_alg».proof.Proof.Gen.KernelIdeal.Frame
import proofs.«410390_j38027640438917_1_alg».proof.Proof.HostDefs
import Idealize.ShloMosaic.Lib.Pipeline.Value
import Idealize.ShloMosaic.Lib.StableHlo.Run

noncomputable section

namespace Cert.KernelIdeal.HostK

open Idealize.ShloMosaic Idealize.ShloMosaic.TcCoe Idealize.SL.Sem
open Idealize.ShloMosaic.Pipeline (Dat)
open Cert.KernelIdeal Cert.KernelIdeal.Gen Cert.KernelIdeal.HostDefs

variable (m : (ℓ : Loc nD τ sig) → Buf (Elt Ideal) ℓ) (ρ : Dev nD → PrngReg)

/-! ## A typed reference's two transports cancel -/
section Casts
open Idealize.ShloMosaic.StableHlo (TRef)
variable {Val : EltTy → Type}

/-- Moving contents to a typed reference's buffer type and back is the identity. -/
theorem ofBuf_toBuf {T : BufTy} (x : TRef sig T) (w : T.Contents Val) : x.ofBuf (x.toBuf w) = w := by
  obtain ⟨r, h, h2, h3⟩ := x
  subst h
  rfl
end Casts

/-! ## Buffers no operation of a stretch writes -/

/-- No operation of the list writes the buffer of reference `b`. -/
abbrev NW (ops : List (HloOp τ sig (Elt Ideal))) (b : Ref sig .tc) : Prop :=
  ∀ op ∈ ops, (Proc.devRef .tc b : DevRef τ sig) ∉ op.writes

/-- Decides `NW ops b` for a literal list and a literal reference: each operation's written set is a singleton
    of another reference. -/
local macro "nw_tac" : tactic => `(tactic| (
  refine List.forall_iff_forall_mem.mp ?_
  simp only [hostOps0, hostOps0_1, hostOps0_2, hostOps1, hostOps2, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

theorem nw0_arg0 : NW hostOps0 main_arg0 := by nw_tac
theorem nw0_arg2 : NW hostOps0 main_arg2 := by nw_tac
theorem nw0_arg3 : NW hostOps0 main_arg3 := by nw_tac
theorem nw0_arg4 : NW hostOps0 main_arg4 := by nw_tac
theorem nw0_arg5 : NW hostOps0 main_arg5 := by nw_tac
theorem nw0_arg6 : NW hostOps0 main_arg6 := by nw_tac
theorem nw01_arg0 : NW hostOps0_1 main_arg0 := by nw_tac
theorem nw01_arg2 : NW hostOps0_1 main_arg2 := by nw_tac
theorem nw01_arg3 : NW hostOps0_1 main_arg3 := by nw_tac
theorem nw01_arg4 : NW hostOps0_1 main_arg4 := by nw_tac
theorem nw01_arg5 : NW hostOps0_1 main_arg5 := by nw_tac
theorem nw01_arg6 : NW hostOps0_1 main_arg6 := by nw_tac
theorem nw01_v3 : NW hostOps0_1 main_v3 := by nw_tac
theorem nw02_arg0 : NW hostOps0_2 main_arg0 := by nw_tac
theorem nw02_arg5 : NW hostOps0_2 main_arg5 := by nw_tac
theorem nw02_arg6 : NW hostOps0_2 main_arg6 := by nw_tac
theorem nw02_v3 : NW hostOps0_2 main_v3 := by nw_tac
theorem nw02_v4 : NW hostOps0_2 main_v4 := by nw_tac
theorem nw1_arg0 : NW hostOps1 main_arg0 := by nw_tac
theorem nw1_v3 : NW hostOps1 main_v3 := by nw_tac
theorem nw1_v4 : NW hostOps1 main_v4 := by nw_tac
theorem nw1_v6 : NW hostOps1 main_v6 := by nw_tac
theorem nw1_v8 : NW hostOps1 main_v8 := by nw_tac
theorem nw1_v10 : NW hostOps1 main_v10 := by nw_tac
theorem nw1_v11 : NW hostOps1 main_v11 := by nw_tac

/-! ## Each stretch's results as whole-array functions of the contents it starts from -/

section Stretch
open Idealize.ShloMosaic.StableHlo (TRef)
variable (X : Valuation τ sig (Elt Ideal))

theorem ops0_v1 : (StableHlo.after hostOps0 X (Proc.devRef .tc main_v1) : IVec S1000000 32) = rowOf (X (Proc.devRef .tc main_arg1)) := by
  after_results; rfl
theorem ops0_v3 : (StableHlo.after hostOps0 X (Proc.devRef .tc main_v3) : IVec S1000000 32) = colOf (X (Proc.devRef .tc main_arg1)) := by
  after_results; rfl
theorem ops02_v6 : (StableHlo.after hostOps0_2 X (Proc.devRef .tc main_v6) : FVec Ideal S1000000x16 .f32) = efeat (X (Proc.devRef .tc main_arg2)) := by
  after_results; rfl
theorem ops02_v8 : (StableHlo.after hostOps0_2 X (Proc.devRef .tc main_v8) : FVec Ideal S64x64 .f32) = w1t (X (Proc.devRef .tc main_arg3)) := by
  after_results; rfl
theorem ops02_v10 : (StableHlo.after hostOps0_2 X (Proc.devRef .tc main_v10) : FVec Ideal S16x64 .f32) = w2t (X (Proc.devRef .tc main_arg3)) := by
  after_results; rfl
theorem ops02_v11 : (StableHlo.after hostOps0_2 X (Proc.devRef .tc main_v11) : FVec Ideal S1x64 .f32) = row1 (X (Proc.devRef .tc main_arg4)) := by
  after_results; rfl

/-- The three transports left around the gather stretch are identities: each is along an equation between a literal
    reference's buffer type and the same type written out. -/
theorem toBuf_v4 (p1 p2 p3) (w : FVec Ideal S1000000x64 .f32) :
    (TRef.toBuf (Val := Elt Ideal) (TRef.of main_v4 p1 p2 p3 : TRef sig ⟨S1000000x64, .f32⟩) w : FVec Ideal S1000000x64 .f32) = w := rfl
theorem ofBuf_arg0 (p1 p2 p3) (v : (main_arg0 : Ref sig .tc).ty.Contents (Elt Ideal)) :
    (TRef.ofBuf (Val := Elt Ideal) (TRef.of main_arg0 p1 p2 p3 : TRef sig ⟨S100000x64, .f32⟩) v : FVec Ideal S100000x64 .f32) = v := rfl
theorem ofBuf_v1 (p1 p2 p3) (v : (main_v1 : Ref sig .tc).ty.Contents (Elt Ideal)) :
    (TRef.ofBuf (Val := Elt Ideal) (TRef.of main_v1 p1 p2 p3 : TRef sig ⟨S1000000, .i32⟩) v : IVec S1000000 32) = v := rfl

set_option maxHeartbeats 1600000 in
/-- The gather stretch with the transports at its two operands and its result still written. -/
theorem ops01_v4_raw : StableHlo.after hostOps0_1 X (Proc.devRef .tc main_v4)
    = TRef.toBuf (Val := Elt Ideal) (TRef.of main_v4 : TRef sig ⟨S1000000x64, .f32⟩)
        (atomK (TRef.ofBuf (Val := Elt Ideal) (TRef.of main_arg0 : TRef sig ⟨S100000x64, .f32⟩) (X (Proc.devRef .tc main_arg0)))
          (TRef.ofBuf (Val := Elt Ideal) (TRef.of main_v1 : TRef sig ⟨S1000000, .i32⟩) (X (Proc.devRef .tc main_v1)))) := by
  after_results_simp
  simp only [ofBuf_toBuf]
  unfold atomK gath inb wrapIdx
  rfl

theorem ops01_v4 : (StableHlo.after hostOps0_1 X (Proc.devRef .tc main_v4) : FVec Ideal S1000000x64 .f32)
    = atomK (X (Proc.devRef .tc main_arg0)) (X (Proc.devRef .tc main_v1)) :=
  (ops01_v4_raw X).trans ((toBuf_v4 _ _ _ _).trans (congr (congrArg atomK (ofBuf_arg0 _ _ _ _)) (ofBuf_v1 _ _ _ _)))
end Stretch

/-! ## Walking a buffer back through the stretches that do not write it -/

section Walk
variable (c : Dev nD) {b : Ref sig .tc}

theorem W1_nw (h0 : NW hostOps0 b) : W1 m ρ c (Proc.devRef .tc b) = m ((c : Thread nD τ).loc b) :=
  (StableHlo.after_of_forall_not_mem _ _ h0).trans rfl
theorem W2_W1 (h1 : NW hostOps0_1 b) : W2 m ρ c (Proc.devRef .tc b) = W1 m ρ c (Proc.devRef .tc b) :=
  StableHlo.after_of_forall_not_mem _ _ h1
theorem W3_W2 (h2 : NW hostOps0_2 b) : W3 m ρ c (Proc.devRef .tc b) = W2 m ρ c (Proc.devRef .tc b) :=
  StableHlo.after_of_forall_not_mem _ _ h2
theorem W5_W4 (h3 : NW hostOps1 b) : W5 m ρ c (Proc.devRef .tc b) = W4 m ρ c (Proc.devRef .tc b) :=
  StableHlo.after_of_forall_not_mem _ _ h3
theorem W2_nw (h1 : NW hostOps0_1 b) (h0 : NW hostOps0 b) : W2 m ρ c (Proc.devRef .tc b) = m ((c : Thread nD τ).loc b) :=
  (W2_W1 m ρ c h1).trans (W1_nw m ρ c h0)
end Walk

/-! ## At the statistics region's entry -/

theorem V3_v4 (c : Dev nD) : (V3 m ρ c main_v4 : S1000000x64.Idx → EReal)
    = atomK (m ((c : Thread nD τ).loc main_arg0)) (rowOf (m ((c : Thread nD τ).loc main_arg1))) :=
  (W3_W2 m ρ c nw02_v4).trans ((ops01_v4 (W1 m ρ c)).trans
    (congr (congrArg atomK (W1_nw m ρ c nw0_arg0)) (ops0_v1 (W0 m ρ c))))
theorem V3_v6 (c : Dev nD) : (V3 m ρ c main_v6 : S1000000x16.Idx → EReal) = efeat (m ((c : Thread nD τ).loc main_arg2)) :=
  (ops02_v6 (W2 m ρ c)).trans (congrArg efeat (W2_nw m ρ c nw01_arg2 nw0_arg2))
theorem V3_v8 (c : Dev nD) : (V3 m ρ c main_v8 : S64x64.Idx → EReal) = w1t (m ((c : Thread nD τ).loc main_arg3)) :=
  (ops02_v8 (W2 m ρ c)).trans (congrArg w1t (W2_nw m ρ c nw01_arg3 nw0_arg3))
theorem V3_v10 (c : Dev nD) : (V3 m ρ c main_v10 : S16x64.Idx → EReal) = w2t (m ((c : Thread nD τ).loc main_arg3)) :=
  (ops02_v10 (W2 m ρ c)).trans (congrArg w2t (W2_nw m ρ c nw01_arg3 nw0_arg3))
theorem V3_v11 (c : Dev nD) : (V3 m ρ c main_v11 : S1x64.Idx → EReal) = row1 (m ((c : Thread nD τ).loc main_arg4)) :=
  (ops02_v11 (W2 m ρ c)).trans (congrArg row1 (W2_nw m ρ c nw01_arg4 nw0_arg4))

/-! ## The two later stretches -/

section Stretch2
variable (X : Valuation τ sig (Elt Ideal))

theorem ops1_v24 : (StableHlo.after hostOps1 X (Proc.devRef .tc main_v24) : FVec Ideal S1x64 .f32)
    = row1 (meanV (X (Proc.devRef .tc main_v12_0))) := by
  after_results_simp; rfl
theorem ops1_v25 : (StableHlo.after hostOps1 X (Proc.devRef .tc main_v25) : FVec Ideal S1x64 .f32)
    = row1 (istdV (X (Proc.devRef .tc main_v12_0)) (X (Proc.devRef .tc main_v12_1))) := by
  after_results_simp; rfl
theorem ops1_v26 : (StableHlo.after hostOps1 X (Proc.devRef .tc main_v26) : FVec Ideal S1x64 .f32)
    = row1 (X (Proc.devRef .tc main_arg5)) := by
  after_results_simp; rfl
theorem ops1_v27 : (StableHlo.after hostOps1 X (Proc.devRef .tc main_v27) : FVec Ideal S1x64 .f32)
    = row1 (X (Proc.devRef .tc main_arg6)) := by
  after_results_simp; rfl
theorem ops2_v41 : (StableHlo.after hostOps2 X (Proc.devRef .tc main_v41) : FVec Ideal S100000x64 .f32)
    = tail (X (Proc.devRef .tc main_arg0)) (X (Proc.devRef .tc main_v3)) (X (Proc.devRef .tc main_v28)) := by
  after_results_simp
  unfold tail
  rfl
end Stretch2

/-! ## Walking back through the regions: a buffer that is no window's array is as the region found it -/

section Walk2
variable (c : Dev nD) {b : Ref sig .tc}

theorem W4_W3 (hne : ∀ w, Pipeline.arrRef spec0 w ≠ b) : W4 m ρ c (Proc.devRef .tc b) = W3 m ρ c (Proc.devRef .tc b) :=
  W4_of_ne m ρ c b hne
theorem W6_W5 (hne : ∀ w, Pipeline.arrRef spec1 w ≠ b) : W6 m ρ c (Proc.devRef .tc b) = W5 m ρ c (Proc.devRef .tc b) :=
  W6_of_ne m ρ c b hne
theorem W4_nw (hne : ∀ w, Pipeline.arrRef spec0 w ≠ b) (h2 : NW hostOps0_2 b) (h1 : NW hostOps0_1 b) (h0 : NW hostOps0 b) :
    W4 m ρ c (Proc.devRef .tc b) = m ((c : Thread nD τ).loc b) :=
  (W4_W3 m ρ c hne).trans ((W3_W2 m ρ c h2).trans (W2_nw m ρ c h1 h0))

theorem W6_arg0 : W6 m ρ c (Proc.devRef .tc main_arg0) = m ((c : Thread nD τ).loc main_arg0) :=
  (W6_W5 m ρ c (by decide)).trans ((W5_W4 m ρ c nw1_arg0).trans (W4_nw m ρ c (by decide) nw02_arg0 nw01_arg0 nw0_arg0))
theorem W6_v3 : (W6 m ρ c (Proc.devRef .tc main_v3) : IVec S1000000 32) = colOf (m ((c : Thread nD τ).loc main_arg1)) :=
  (W6_W5 m ρ c (by decide)).trans ((W5_W4 m ρ c nw1_v3).trans ((W4_W3 m ρ c (by decide)).trans
    ((W3_W2 m ρ c nw02_v3).trans ((W2_W1 m ρ c nw01_v3).trans (ops0_v3 (W0 m ρ c))))))
end Walk2

/-! ## At the normalising region's entry: the five shared operands unchanged, the four channel rows computed -/

theorem V5_v4 (c : Dev nD) : V5 m ρ c main_v4 = V3 m ρ c main_v4 :=
  (W5_W4 m ρ c nw1_v4).trans ((W4_arr m ρ c 0).trans (((dat0 (V3 m ρ) c).arrAt_in 0 rfl _).trans (A_eq0 (V3 m ρ) c 0)))
theorem V5_v6 (c : Dev nD) : V5 m ρ c main_v6 = V3 m ρ c main_v6 :=
  (W5_W4 m ρ c nw1_v6).trans ((W4_arr m ρ c 1).trans (((dat0 (V3 m ρ) c).arrAt_in 1 rfl _).trans (A_eq0 (V3 m ρ) c 1)))
theorem V5_v8 (c : Dev nD) : V5 m ρ c main_v8 = V3 m ρ c main_v8 :=
  (W5_W4 m ρ c nw1_v8).trans ((W4_arr m ρ c 2).trans (((dat0 (V3 m ρ) c).arrAt_in 2 rfl _).trans (A_eq0 (V3 m ρ) c 2)))
theorem V5_v10 (c : Dev nD) : V5 m ρ c main_v10 = V3 m ρ c main_v10 :=
  (W5_W4 m ρ c nw1_v10).trans ((W4_arr m ρ c 3).trans (((dat0 (V3 m ρ) c).arrAt_in 3 rfl _).trans (A_eq0 (V3 m ρ) c 3)))
theorem V5_v11 (c : Dev nD) : V5 m ρ c main_v11 = V3 m ρ c main_v11 :=
  (W5_W4 m ρ c nw1_v11).trans ((W4_arr m ρ c 4).trans (((dat0 (V3 m ρ) c).arrAt_in 4 rfl _).trans (A_eq0 (V3 m ρ) c 4)))
theorem V5_v24 (c : Dev nD) : (V5 m ρ c main_v24 : S1x64.Idx → EReal)
    = row1 (meanV ((dat0 (V3 m ρ) c).arrAt 5 cfg0.N)) :=
  (ops1_v24 (W4 m ρ c)).trans (congrArg row1 (congrArg meanV (W4_arr m ρ c 5)))
theorem V5_v25 (c : Dev nD) : (V5 m ρ c main_v25 : S1x64.Idx → EReal)
    = row1 (istdV ((dat0 (V3 m ρ) c).arrAt 5 cfg0.N) ((dat0 (V3 m ρ) c).arrAt 6 cfg0.N)) :=
  (ops1_v25 (W4 m ρ c)).trans (congrArg row1 (congr (congrArg istdV (W4_arr m ρ c 5)) (W4_arr m ρ c 6)))
theorem V5_v26 (c : Dev nD) : (V5 m ρ c main_v26 : S1x64.Idx → EReal) = row1 (m ((c : Thread nD τ).loc main_arg5)) :=
  (ops1_v26 (W4 m ρ c)).trans (congrArg row1 (W4_nw m ρ c (by decide) nw02_arg5 nw01_arg5 nw0_arg5))
theorem V5_v27 (c : Dev nD) : (V5 m ρ c main_v27 : S1x64.Idx → EReal) = row1 (m ((c : Thread nD τ).loc main_arg6)) :=
  (ops1_v27 (W4 m ρ c)).trans (congrArg row1 (W4_nw m ρ c (by decide) nw02_arg6 nw01_arg6 nw0_arg6))

/-! ## At the return -/

theorem W7_v41 (c : Dev nD) : (W7 m ρ c (Proc.devRef .tc main_v41) : S100000x64.Idx → EReal)
    = tail (m ((c : Thread nD τ).loc main_arg0)) (colOf (m ((c : Thread nD τ).loc main_arg1)))
        ((dat1 (V5 m ρ) c).arrAt 9 cfg1.N) :=
  (ops2_v41 (W6 m ρ c)).trans (congr (congr (congrArg tail (W6_arg0 m ρ c)) (W6_v3 m ρ c)) (W6_arr m ρ c 9))

end Cert.KernelIdeal.HostK

end
-- ==== Proof.Spec.lean ====
/-
  The mathematics both programs compute, index by index over the extended reals, stated once.

  For every edge e and output channel j the activation is
      u(e,j) = max( Σ_k A(e,k)·W1(k,j) + Σ_k Ef(e,k)·W2(k,j) + B(0,j), 0 ),
  the batch statistics are the column sums  s1(j) = Σ_e u(e,j),  s2(j) = Σ_e u(e,j)²,
  and the normalised activation is  (u − mean)·istd·γ + β.
  The kernel takes  mean = s1/10⁶  and  var = s2/10⁶ − mean²;  the reference takes the same mean
  (from 0 + Σ) and  var = (0 + Σ_e (u − mean)²)/10⁶  with one 80-term contraction against W itself.
  Over finite activations the two variances are the same real number.
-/
import Idealize.ShloMosaic.PureOps.Ideal
import Idealize.ShloMosaic.Lib.ValueIdx

noncomputable section

namespace Cert.Bridge

open Idealize.ShloMosaic Idealize.ShloMosaic.ValueIdx

/-- The number of edges, 10⁶, as the f32 literal both programs divide by. -/
abbrev cntE : EReal := Ideal.ofBits .f32 0x49742400#32
/-- The batch-norm epsilon, the same f32 literal in both programs. -/
abbrev epsBN : EReal := Ideal.ofBits .f32 0x3727C5AC#32
/-- The f32 zero literal. -/
abbrev zeroF : EReal := Ideal.ofBits .f32 0x00000000#32

/-- The row coordinate of a rank-2 index as a number below the row extent. -/
def c0 {n0 n1 : Nat} (i : (⟨2, ![n0, n1]⟩ : Shape).Idx) : Fin n0 := ⟨(i 0).val, idx2_lt0 i⟩
/-- The column coordinate of a rank-2 index as a number below the column extent. -/
def c1 {n0 n1 : Nat} (i : (⟨2, ![n0, n1]⟩ : Shape).Idx) : Fin n1 := ⟨(i 1).val, idx2_lt1 i⟩
theorem c0_ix2 {n0 n1 : Nat} (a : Fin n0) (b : Fin n1) : c0 (ix2 a b) = a := rfl
theorem c1_ix2 {n0 n1 : Nat} (a : Fin n0) (b : Fin n1) : c1 (ix2 a b) = b := rfl

/-- The activation from the region's own operands: two contractions (64 and 16 terms), the bias row, the ramp. -/
def act (A : (⟨2, ![1000000, 64]⟩ : Shape).Idx → EReal) (Ef : (⟨2, ![1000000, 16]⟩ : Shape).Idx → EReal)
    (W1 : (⟨2, ![64, 64]⟩ : Shape).Idx → EReal) (W2 : (⟨2, ![16, 64]⟩ : Shape).Idx → EReal)
    (B : (⟨2, ![1, 64]⟩ : Shape).Idx → EReal) (e : Fin 1000000) (j : Fin 64) : EReal :=
  max (((∑ k : Fin 64, A (ix2 e k) * W1 (ix2 k j)) + ∑ k : Fin 16, Ef (ix2 e k) * W2 (ix2 k j)) + B (ix2 0 j)) zeroF

/-- Column sum of the activations. -/
def sum1 (u : Fin 1000000 → Fin 64 → EReal) (j : Fin 64) : EReal := ∑ e : Fin 1000000, u e j
/-- Column sum of the squared activations. -/
def sum2 (u : Fin 1000000 → Fin 64 → EReal) (j : Fin 64) : EReal := ∑ e : Fin 1000000, u e j * u e j

/-- The kernel's mean from the column sum. -/
def meanK (s1 : EReal) : EReal := Ideal.div s1 cntE
/-- The kernel's reciprocal standard deviation from the two column sums: E[u²] − mean². -/
def istdK (s1 s2 : EReal) : EReal := Ideal.rsqrt ((Ideal.div s2 cntE - meanK s1 * meanK s1) + epsBN)

/-- The affine normalisation applied to one activation. -/
def norm (u mn is g bt : EReal) : EReal := (u - mn) * is * g + bt

/-- The reference's activation: one 80-term contraction of the concatenated features against W's row j. -/
def actR (A : (⟨2, ![1000000, 64]⟩ : Shape).Idx → EReal) (Ef : (⟨2, ![1000000, 16]⟩ : Shape).Idx → EReal)
    (W : (⟨2, ![64, 80]⟩ : Shape).Idx → EReal) (b : (⟨1, ![64]⟩ : Shape).Idx → EReal) (e : Fin 1000000) (j : Fin 64) : EReal :=
  max ((∑ k : Fin 80, (if h : k.val < 64 then A (ix2 e ⟨k.val, h⟩) else Ef (ix2 e ⟨k.val - 64, by have := k.isLt; omega⟩)) * W (ix2 j k))
    + b (ix1 j)) zeroF

/-- The reference's mean: the host sum starts from the zero literal. -/
def meanR (u : Fin 1000000 → Fin 64 → EReal) (j : Fin 64) : EReal := Ideal.div (zeroF + ∑ e : Fin 1000000, u e j) cntE
/-- The reference's variance: the mean of the squared deviations. -/
def varR (u : Fin 1000000 → Fin 64 → EReal) (j : Fin 64) : EReal :=
  Ideal.div (zeroF + ∑ e : Fin 1000000, (u e j - meanR u j) * (u e j - meanR u j)) cntE
/-- The reference's reciprocal standard deviation. -/
def istdR (u : Fin 1000000 → Fin 64 → EReal) (j : Fin 64) : EReal := Ideal.rsqrt (varR u j + epsBN)

end Cert.Bridge

end
-- ==== Proof.HostIdx.lean ====
/-
  The host stages read at one entry.
-/
import proofs.«410390_j38027640438917_1_alg».proof.Proof.HostDefs
import proofs.«410390_j38027640438917_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HostIdx

open Idealize.ShloMosaic Idealize.ShloMosaic.ValueIdx Cert.KernelIdeal Cert.KernelIdeal.HostDefs

/-- Entry (k, j) of the transposed node-feature panel is W's entry (j, k). -/
theorem w1t_apply (W : FVec Ideal S64x80 .f32) (k : Fin 64) (j : Fin 64) :
    w1t W (ix2 k j) = W (ix2 j ⟨k.val, by have := k.isLt; omega⟩) := by
  unfold w1t
  refine (transpose_ix2_apply _ _ k j).trans ?_
  exact slice2_axis1_apply 0 W _ j k _ (Nat.zero_add _).symm

/-- Entry (k, j) of the transposed edge-feature panel is W's entry (j, 64 + k). -/
theorem w2t_apply (W : FVec Ideal S64x80 .f32) (k : Fin 16) (j : Fin 64) :
    w2t W (ix2 k j) = W (ix2 j ⟨64 + k.val, by have := k.isLt; omega⟩) := by
  unfold w2t
  refine (transpose_ix2_apply _ _ k j).trans ?_
  exact slice2_axis1_apply 64 W _ j k _ rfl

/-- A channel vector laid as one row keeps its entries. -/
theorem row1_apply (v : FVec Ideal S64 .f32) (j : Fin 64) : row1 v (ix2 0 j) = v (ix1 j) := by
  unfold row1
  exact shapeCast_a_1a_apply v _ 0 j

/-- A one-row matrix read as a channel vector: channel j is the row's entry j. -/
theorem flat1_apply (v : FVec Ideal S1x64 .f32) (j : Fin 64) : flat1 v (ix1 j) = v (ix2 0 j) := by
  unfold flat1
  exact shapeCast_1a_a_apply v _ j

/-- The edge count reads the same on every channel. -/
theorem cnt64_apply (i : S64.Idx) : cnt64 i = Cert.Bridge.cntE := rfl

/-- The mean's channel j is the kernel's mean of column sum j. -/
theorem meanV_apply (s1 : FVec Ideal S1x64 .f32) (j : Fin 64) :
    meanV s1 (ix1 j) = Cert.Bridge.meanK (s1 (ix2 0 j)) := by
  unfold meanV Cert.Bridge.meanK
  show Ideal.div (flat1 s1 (ix1 j)) (cnt64 (ix1 j)) = _
  rw [flat1_apply, cnt64_apply]

/-- The reciprocal deviation's channel j, from the two column sums' entries j. -/
theorem istdV_apply (s1 s2 : FVec Ideal S1x64 .f32) (j : Fin 64) :
    istdV s1 s2 (ix1 j) = Cert.Bridge.istdK (s1 (ix2 0 j)) (s2 (ix2 0 j)) := by
  unfold istdV Cert.Bridge.istdK
  show Ideal.rsqrt ((Ideal.div (flat1 s2 (ix1 j)) (cnt64 (ix1 j)) - meanV s1 (ix1 j) * meanV s1 (ix1 j))
      + Cert.Bridge.epsBN) = _
  rw [flat1_apply, cnt64_apply, meanV_apply]

end Cert.KernelIdeal.HostIdx

end
-- ==== Proof.PayAct.lean ====
/-
  The body's activation payload read at one entry of the block.
-/
import proofs.«410390_j38027640438917_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayAct

open Idealize.ShloMosaic Idealize.ShloMosaic.ValueIdx Cert.KernelIdeal Cert.KernelIdeal.Gen

/-! ## The 64-term contraction (block rows against the first weight panel): operand indices, axis by axis -/

/-- The left operand's index at output index `i` and contraction index `q`: its row coordinate is the output's row. -/
theorem lhs_d64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Its column coordinate is the contraction index's one coordinate. -/
theorem lhs_d64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row coordinate is the contraction index's one coordinate. -/
theorem rhs_d64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- Its column coordinate is the output's column. -/
theorem rhs_d64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The 16-term contraction (edge features against the second weight panel): operand indices, axis by axis -/

/-- The left operand's index at output index `i` and contraction index `q`: its row coordinate is the output's row. -/
theorem lhs_d16_0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
/-- Its column coordinate is the contraction index's one coordinate. -/
theorem lhs_d16_1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
/-- The right operand's row coordinate is the contraction index's one coordinate. -/
theorem rhs_d16_0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
/-- Its column coordinate is the output's column. -/
theorem rhs_d16_1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-! ## Each contraction into the zero accumulator, read at an entry -/

/-- Entry (r, j) of the first product: the sum over k of row r's entry k times the panel's entry (k, j); the zero accumulator adds nothing. -/
theorem mm_d64_apply (a : FVec Ideal S10000x64 .bf16) (b : FVec Ideal S64x64 .bf16) (r : Fin 10000) (j : Fin 64) :
    matmul dot_S10000x64_S64x64_S10000x64_1_0_0_1_n_n none a b (constant (F := Ideal) S10000x64 .f32 0x00000000#32) (ix2 r j)
      = ∑ k : Fin 64, a (ix2 r k) * b (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun c => Fin.ext (by
    match c with
    | ⟨0, _⟩ => exact lhs_d64_0 _ _
    | ⟨1, _⟩ => exact (lhs_d64_1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun c => Fin.ext (by
    match c with
    | ⟨0, _⟩ => exact (rhs_d64_0 _ _).trans hk
    | ⟨1, _⟩ => exact rhs_d64_1 _ _)
  rw [el, er]

/-- Entry (r, j) of the second product: the same over the 16 edge-feature columns. -/
theorem mm_d16_apply (a : FVec Ideal S10000x16 .bf16) (b : FVec Ideal S16x64 .bf16) (r : Fin 10000) (j : Fin 64) :
    matmul dot_S10000x16_S16x64_S10000x64_1_0_0_1_n_n none a b (constant (F := Ideal) S10000x64 .f32 0x00000000#32) (ix2 r j)
      = ∑ k : Fin 16, a (ix2 r k) * b (ix2 k j) := by
  simp only [matmul]
  rw [Ideal.matmul_constant_zero_apply, ← Equiv.sum_comp (contrEquiv1 dot_S10000x16_S16x64_S10000x64_1_0_0_1_n_n 16 rfl rfl).symm]
  refine Finset.sum_congr rfl fun k _ => ?_
  have hk := contrEquiv1_symm_val dot_S10000x16_S16x64_S10000x64_1_0_0_1_n_n 16 rfl rfl k
  have el : dot_S10000x16_S16x64_S10000x64_1_0_0_1_n_n.lhsIdx (ix2 r j) ((contrEquiv1 dot_S10000x16_S16x64_S10000x64_1_0_0_1_n_n 16 rfl rfl).symm k) = ix2 r k := funext fun c => Fin.ext (by
    match c with
    | ⟨0, _⟩ => exact lhs_d16_0 _ _
    | ⟨1, _⟩ => exact (lhs_d16_1 _ _).trans hk)
  have er : dot_S10000x16_S16x64_S10000x64_1_0_0_1_n_n.rhsIdx (ix2 r j) ((contrEquiv1 dot_S10000x16_S16x64_S10000x64_1_0_0_1_n_n 16 rfl rfl).symm k) = ix2 k j := funext fun c => Fin.ext (by
    match c with
    | ⟨0, _⟩ => exact (rhs_d16_0 _ _).trans hk
    | ⟨1, _⟩ => exact rhs_d16_1 _ _)
  rw [el, er]

/-- Entry (r, j) of the activation block: the two contractions over the block's row r and the panels' column j,
    plus the bias row's entry j, ramped at zero. -/
theorem pay4_apply (x0 : Vec Ideal S10000x64 .f32) (x1 : Vec Ideal S10000x16 .f32) (x2 : Vec Ideal S64x64 .f32)
    (x3 : Vec Ideal S16x64 .f32) (x4 : Vec Ideal S1x64 .f32) (r : Fin 10000) (j : Fin 64) :
    k0_pay4 (F := Ideal) x0 x1 x2 x3 x4 (ix2 r j)
      = max (((∑ k : Fin 64, x0 (ix2 r k) * x2 (ix2 k j)) + ∑ k : Fin 16, x1 (ix2 r k) * x3 (ix2 k j)) + x4 (ix2 0 j))
          (Ideal.ofBits .f32 0x00000000#32) := by
  unfold k0_pay4
  simp only [maximumf_apply, addf_apply, broadcast_apply, mm_d64_apply, mm_d16_apply, truncf_apply, shapeCast_self,
    broadcastTo_1b_ab_apply]
  rfl

end Cert.KernelIdeal.PayAct

end
-- ==== Proof.LibSums.lean ====
/-
  Finite sums over a flat index read through quotient and remainder.

  A position q below a·b is the pair (q / b, q % b). A sum over the flat positions that meet a condition on the pair is
  the double sum over the pairs that meet it; a sum over all flat positions is the sum over tiles of the sum inside a tile.
  Stated for any commutative additive monoid and any extents.
-/
import Idealize.ShloMosaic.Lib.ValueIdx

noncomputable section

open scoped BigOperators

namespace Cert.LibSums

/-- The quotient of a flat position by the inner extent, as the outer coordinate. -/
def hi {N a b : Nat} (hN : N = a * b) (q : Fin N) : Fin a :=
  ⟨q.val / b, by have := q.isLt; subst hN; exact Nat.div_lt_of_lt_mul (by have h := Nat.mul_comm a b; omega)⟩

/-- The remainder of a flat position by the inner extent, as the inner coordinate. -/
def lo {N : Nat} (b : Nat) (hb : 0 < b) (q : Fin N) : Fin b := ⟨q.val % b, Nat.mod_lt _ hb⟩

/-- The flat position of a pair. -/
def flat {N a b : Nat} (hN : N = a * b) (k : Fin a) (p : Fin b) : Fin N :=
  ⟨k.val * b + p.val, by
    have hk := k.isLt; have hp := p.isLt; subst hN
    calc k.val * b + p.val < k.val * b + b := by omega
      _ = (k.val + 1) * b := by ring
      _ ≤ a * b := Nat.mul_le_mul_right b hk⟩

/-- The pair of a flat position as an equivalence between the flat positions below `a·b` and the pairs; its inverse is
`flat`. The round trips are `q / b · b + q % b = q`, `(k·b + p) / b = k` and `(k·b + p) % b = p` for `p < b`. -/
def pairEquiv (a b : Nat) (hb : 0 < b) : Fin (a * b) ≃ Fin a × Fin b where
  toFun q := (hi rfl q, lo b hb q)
  invFun x := flat rfl x.1 x.2
  left_inv q := by
    apply Fin.ext
    show q.val / b * b + q.val % b = q.val
    exact Nat.div_add_mod' q.val b
  right_inv x := by
    obtain ⟨k, p⟩ := x
    apply Prod.ext
    · apply Fin.ext
      show (k.val * b + p.val) / b = k.val
      rw [Nat.add_comm, Nat.add_mul_div_right _ _ hb, Nat.div_eq_of_lt p.isLt, Nat.zero_add]
    · apply Fin.ext
      show (k.val * b + p.val) % b = p.val
      rw [Nat.add_comm, Nat.add_mul_mod_self_right, Nat.mod_eq_of_lt p.isLt]

/-- A sum over the flat positions whose pair meets `P` is the double sum over the pairs that meet `P`. -/
theorem sum_filter_flat {M : Type} [AddCommMonoid M] {N a b : Nat} (hN : N = a * b) (hb : 0 < b)
    (P : Fin a → Fin b → Prop) [∀ k p, Decidable (P k p)] (f : Fin a → Fin b → M) :
    ∑ q ∈ Finset.univ.filter (fun q : Fin N => P (hi hN q) (lo b hb q)), f (hi hN q) (lo b hb q)
      = ∑ k : Fin a, ∑ p ∈ Finset.univ.filter (fun p : Fin b => P k p), f k p := by
  subst hN
  rw [Finset.sum_filter]
  refine (Fintype.sum_equiv (pairEquiv a b hb)
    (fun q : Fin (a * b) => if P (hi rfl q) (lo b hb q) then f (hi rfl q) (lo b hb q) else 0)
    (fun x : Fin a × Fin b => if P x.1 x.2 then f x.1 x.2 else 0) (fun _ => rfl)).trans ?_
  rw [Fintype.sum_prod_type]
  refine Finset.sum_congr rfl (fun k _ => ?_)
  rw [Finset.sum_filter]

/-- A sum over all flat positions is the sum over tiles of the sum inside each tile. -/
theorem sum_tiles {M : Type} [AddCommMonoid M] {N a b : Nat} (hN : N = a * b) (f : Fin N → M) :
    ∑ r : Fin N, f r = ∑ t : Fin a, ∑ i : Fin b, f (flat hN t i) := by
  subst hN
  rcases Nat.eq_zero_or_pos b with hb | hb
  · subst hb
    haveI : IsEmpty (Fin (a * 0)) := ⟨fun q => absurd q.isLt (by simp)⟩
    rw [Fintype.sum_empty]
    exact (Finset.sum_eq_zero (fun t _ => Fintype.sum_empty _)).symm
  · refine ((pairEquiv a b hb).symm.sum_comp f).symm.trans ?_
    rw [Fintype.sum_prod_type]
    rfl

end Cert.LibSums

end
-- ==== Proof.Region0.lean ====
/-
  The statistics region: what its two result arrays hold when the grid has run.
-/
import proofs.«410390_j38027640438917_1_alg».proof.Proof.Gen.KernelIdeal.Frame
import proofs.«410390_j38027640438917_1_alg».proof.Proof.PayAct
import proofs.«410390_j38027640438917_1_alg».proof.Proof.Spec
import Idealize.ShloMosaic.Lib.Pipeline.Value
import proofs.«410390_j38027640438917_1_alg».proof.Proof.LibSums
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

/-! ## What one run of the body leaves in the two result buffers -/

section Pieces

variable {F : FTy → Type} [FloatOps F]

/-- The offsets of a whole-buffer access are zero on both axes. -/
theorem hz : (![0, 0] : Fin 2 → Nat) = fun _ => 0 := funext fun a => by fin_cases a <;> rfl

/-- Away from the first point the body leaves, in the first result's buffer holding `xo5`, the payload of its one
    covering store: `xo5` plus the column sums of the activation block. -/
theorem out0_B_5_eq (c : Dev nD) (i : grid0.Coords) (a1 : Memref sig .tc .vmem S10000x64 .f32) (h1 : a1.IsWhole) (a2 : Memref sig .tc .vmem S10000x16 .f32) (h2 : a2.IsWhole) (a3 : Memref sig .tc .vmem S64x64 .f32) (h3 : a3.IsWhole) (a4 : Memref sig .tc .vmem S16x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : ¬cond0_0 i)
    (x0 : Vec F S10000x64 .f32) (x1 : Vec F S10000x16 .f32) (x2 : Vec F S64x64 .f32) (x3 : Vec F S16x64 .f32) (x4 : Vec F S1x64 .f32) (xo5 xo6 : Vec F S1x64 .f32) :
    out0_B_5 (F := F) c i a1 h1 a2 h2 a3 h3 a4 h4 a5 h5 a6 h6 a7 h7 hc x0 x1 x2 x3 x4 xo5 xo6 = k0_pay5 x0 x1 x2 x3 x4 xo5 := by
  unfold out0_B_5
  rw [View.read_writes_eq_canon _ _ _ (cover0_B_5 c i a1 h1 a2 h2 a3 h3 a4 h4 a5 h5 a6 h6 a7 h7 hc x0 x1 x2 x3 x4 xo5 xo6)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S10000x64) hz, View.ld_unit_zero (S := S10000x16) hz, View.ld_unit_zero (S := S64x64) hz, View.ld_unit_zero (S := S16x64) hz, View.ld_unit_zero (S := S1x64) hz, shapeCast_self]

/-- Likewise the second result's buffer holding `xo6`: `xo6` plus the column sums of the squared activations. -/
theorem out0_B_6_eq (c : Dev nD) (i : grid0.Coords) (a1 : Memref sig .tc .vmem S10000x64 .f32) (h1 : a1.IsWhole) (a2 : Memref sig .tc .vmem S10000x16 .f32) (h2 : a2.IsWhole) (a3 : Memref sig .tc .vmem S64x64 .f32) (h3 : a3.IsWhole) (a4 : Memref sig .tc .vmem S16x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : ¬cond0_0 i)
    (x0 : Vec F S10000x64 .f32) (x1 : Vec F S10000x16 .f32) (x2 : Vec F S64x64 .f32) (x3 : Vec F S16x64 .f32) (x4 : Vec F S1x64 .f32) (xo5 xo6 : Vec F S1x64 .f32) :
    out0_B_6 (F := F) c i a1 h1 a2 h2 a3 h3 a4 h4 a5 h5 a6 h6 a7 h7 hc x0 x1 x2 x3 x4 xo5 xo6 = k0_pay1 (k0_pay6 xo6) (k0_pay7 x0 x1 x2 x3 x4) := by
  unfold out0_B_6
  rw [View.read_writes_eq_canon _ _ _ (cover0_B_6 c i a1 h1 a2 h2 a3 h3 a4 h4 a5 h5 a6 h6 a7 h7 hc x0 x1 x2 x3 x4 xo5 xo6)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S10000x64) hz, View.ld_unit_zero (S := S10000x16) hz, View.ld_unit_zero (S := S64x64) hz, View.ld_unit_zero (S := S16x64) hz, View.ld_unit_zero (S := S1x64) hz, shapeCast_self]

/-- At the first point the body stores the zero row, reads it back, and leaves the zero row plus the column sums. -/
theorem out0_A_5_eq (c : Dev nD) (i : grid0.Coords) (a1 : Memref sig .tc .vmem S10000x64 .f32) (h1 : a1.IsWhole) (a2 : Memref sig .tc .vmem S10000x16 .f32) (h2 : a2.IsWhole) (a3 : Memref sig .tc .vmem S64x64 .f32) (h3 : a3.IsWhole) (a4 : Memref sig .tc .vmem S16x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : cond0_0 i)
    (x0 : Vec F S10000x64 .f32) (x1 : Vec F S10000x16 .f32) (x2 : Vec F S64x64 .f32) (x3 : Vec F S16x64 .f32) (x4 : Vec F S1x64 .f32) :
    out0_A_5 (F := F) c i a1 h1 a2 h2 a3 h3 a4 h4 a5 h5 a6 h6 a7 h7 hc x0 x1 x2 x3 x4 = k0_pay5 x0 x1 x2 x3 x4 (k0_pay2 (F := F)) := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_cons_unit_zero (S := S1x64) hz]
  simp only [View.readAt_eq_ld, h1.read_unread, h2.read_unread, h3.read_unread, h4.read_unread, h5.read_unread, View.ld_unit_zero (S := S10000x64) hz, View.ld_unit_zero (S := S10000x16) hz, View.ld_unit_zero (S := S64x64) hz, View.ld_unit_zero (S := S16x64) hz, View.ld_unit_zero (S := S1x64) hz, View.readCov_unit_zero (S := S1x64) _ hz, shapeCast_self]

/-- Likewise the second result: the zero row plus the column sums of the squares. -/
theorem out0_A_6_eq (c : Dev nD) (i : grid0.Coords) (a1 : Memref sig .tc .vmem S10000x64 .f32) (h1 : a1.IsWhole) (a2 : Memref sig .tc .vmem S10000x16 .f32) (h2 : a2.IsWhole) (a3 : Memref sig .tc .vmem S64x64 .f32) (h3 : a3.IsWhole) (a4 : Memref sig .tc .vmem S16x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : cond0_0 i)
    (x0 : Vec F S10000x64 .f32) (x1 : Vec F S10000x16 .f32) (x2 : Vec F S64x64 .f32) (x3 : Vec F S16x64 .f32) (x4 : Vec F S1x64 .f32) :
    out0_A_6 (F := F) c i a1 h1 a2 h2 a3 h3 a4 h4 a5 h5 a6 h6 a7 h7 hc x0 x1 x2 x3 x4 = k0_pay1 (k0_pay6 (k0_pay3 (F := F))) (k0_pay7 x0 x1 x2 x3 x4) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x64) hz]
  simp only [View.readAt_eq_ld, h1.read_unread, h2.read_unread, h3.read_unread, h4.read_unread, h5.read_unread, View.ld_unit_zero (S := S10000x64) hz, View.ld_unit_zero (S := S10000x16) hz, View.ld_unit_zero (S := S64x64) hz, View.ld_unit_zero (S := S16x64) hz, View.ld_unit_zero (S := S1x64) hz, View.readCov_unit_zero (S := S1x64) _ hz, shapeCast_self]

end Pieces

/-! ## The payloads read at an entry -/

/-- The index the column reduction reads at row `r`, column `q`. -/
theorem lift_rows (q : Fin 64) (r : Fin 10000) :
    (reduces_S10000x64_S64.lift (ix1 q) r : S10000x64.Idx) = ix2 r q := by
  funext a
  apply Fin.ext
  match a with
  | ⟨0, _⟩ => rfl
  | ⟨1, _⟩ => rfl

/-- A block's column sums, laid out as one row: entry (0, q) is the sum of column `q` over the 10000 rows. -/
theorem colsum_apply (u : FVec Ideal S10000x64 .f32) (q : Fin 64) :
    (shapeCast S1x64 (multiReduction .add [0] S64 u 0x00000000#32 reduces_S10000x64_S64 (.inl rfl) rfl) shapeCasts_S64_S1x64
        : S1x64.Idx → EReal) (ix2 0 q)
      = ∑ r : Fin 10000, u (ix2 r q) := by
  refine (shapeCast_a_1a_apply _ shapeCasts_S64_S1x64 0 q).trans ?_
  refine (Ideal.multiReduction_add_single u _ reduces_S10000x64_S64 _ _ (ix1 q)).trans ?_
  exact Finset.sum_congr rfl fun r _ => congrArg u (lift_rows q r)

/-- The first result's update at entry (0, q): the running entry plus the column sum of the activation block. -/
theorem pay5_apply (x0 : Vec Ideal S10000x64 .f32) (x1 : Vec Ideal S10000x16 .f32) (x2 : Vec Ideal S64x64 .f32)
    (x3 : Vec Ideal S16x64 .f32) (x4 : Vec Ideal S1x64 .f32) (acc : Vec Ideal S1x64 .f32) (q : Fin 64) :
    (k0_pay5 (F := Ideal) x0 x1 x2 x3 x4 acc : S1x64.Idx → EReal) (ix2 0 q)
      = acc (ix2 0 q) + ∑ r : Fin 10000, (k0_pay4 (F := Ideal) x0 x1 x2 x3 x4 : S10000x64.Idx → EReal) (ix2 r q) := by
  unfold k0_pay5
  exact congrArg₂ (· + ·) (congrFun (shapeCast_self acc shapeCasts_S1x64_S1x64) (ix2 0 q)) (colsum_apply _ q)

/-- The second result's update at entry (0, q): the running entry plus the column sum of the squared activations. -/
theorem pay1_apply (x0 : Vec Ideal S10000x64 .f32) (x1 : Vec Ideal S10000x16 .f32) (x2 : Vec Ideal S64x64 .f32)
    (x3 : Vec Ideal S16x64 .f32) (x4 : Vec Ideal S1x64 .f32) (acc : Vec Ideal S1x64 .f32) (q : Fin 64) :
    (k0_pay1 (F := Ideal) (k0_pay6 acc) (k0_pay7 x0 x1 x2 x3 x4) : S1x64.Idx → EReal) (ix2 0 q)
      = acc (ix2 0 q) + ∑ r : Fin 10000, (k0_pay4 (F := Ideal) x0 x1 x2 x3 x4 : S10000x64.Idx → EReal) (ix2 r q)
          * (k0_pay4 (F := Ideal) x0 x1 x2 x3 x4 : S10000x64.Idx → EReal) (ix2 r q) := by
  unfold k0_pay1 k0_pay6 k0_pay7
  exact congrArg₂ (· + ·) (congrFun (shapeCast_self acc shapeCasts_S1x64_S1x64) (ix2 0 q)) (colsum_apply _ q)

/-- The row the reset stores is zero at every entry. -/
theorem pay2_apply (y : S1x64.Idx) : (k0_pay2 (F := Ideal) : S1x64.Idx → EReal) y = 0 := Ideal.ofBits_zero_f32
/-- Likewise the row the second result's reset stores. -/
theorem pay3_apply (y : S1x64.Idx) : (k0_pay3 (F := Ideal) : S1x64.Idx → EReal) y = 0 := Ideal.ofBits_zero_f32

/-- Row `r` of the block at point `t`, as a row of the whole edge set: `10000·t + r`. -/
abbrev rowAt (t : ℕ) (ht : t < 100) (r : Fin 10000) : Fin 1000000 := ⟨t * 10000 + r.val, by have := r.isLt; omega⟩

/-- Entry (r, q) of a point's activation block, over blocks that are rows `10000·t …` of the two edge arrays and the
    resident panels and bias row: the activation of edge `10000·t + r` at channel `q`. -/
theorem pay4_rows (A : (⟨2, ![1000000, 64]⟩ : Shape).Idx → EReal) (Ef : (⟨2, ![1000000, 16]⟩ : Shape).Idx → EReal)
    (W1 : (⟨2, ![64, 64]⟩ : Shape).Idx → EReal) (W2 : (⟨2, ![16, 64]⟩ : Shape).Idx → EReal)
    (B : (⟨2, ![1, 64]⟩ : Shape).Idx → EReal)
    (x0 : Vec Ideal S10000x64 .f32) (x1 : Vec Ideal S10000x16 .f32) (x2 : Vec Ideal S64x64 .f32)
    (x3 : Vec Ideal S16x64 .f32) (x4 : Vec Ideal S1x64 .f32) (t : ℕ) (ht : t < 100)
    (e0 : ∀ (r : Fin 10000) (k : Fin 64), x0 (ix2 r k) = A (ix2 (rowAt t ht r) k))
    (e1 : ∀ (r : Fin 10000) (k : Fin 16), x1 (ix2 r k) = Ef (ix2 (rowAt t ht r) k))
    (e2 : x2 = W1) (e3 : x3 = W2) (e4 : x4 = B) (r : Fin 10000) (q : Fin 64) :
    (k0_pay4 (F := Ideal) x0 x1 x2 x3 x4 : S10000x64.Idx → EReal) (ix2 r q)
      = Cert.Bridge.act A Ef W1 W2 B (rowAt t ht r) q := by
  subst e2 e3 e4
  refine (Cert.KernelIdeal.PayAct.pay4_apply x0 x1 x2 x3 x4 r q).trans ?_
  unfold Cert.Bridge.act
  simp only [e0, e1]

variable (V : (c : Dev nD) → (b : Ref sig .tc) → Buf (Elt Ideal) ((c : Thread nD τ).loc b))

/-- The activations of the whole edge set, from the arrays the region finds. -/
abbrev actV (c : Dev nD) : Fin 1000000 → Fin 64 → EReal :=
  Cert.Bridge.act (V c main_v4) (V c main_v6) (V c main_v8) (V c main_v10) (V c main_v11)

/-! ## The blocks the region reads, and the running sums -/

/-- The five input blocks at a point and the five arrays they are cut from, by their literal types. -/
abbrev blk0 (c : Dev nD) (t : Fin cfg0.N) : Vec Ideal S10000x64 .f32 := iblk0 V c 0 t
abbrev blk1 (c : Dev nD) (t : Fin cfg0.N) : Vec Ideal S10000x16 .f32 := iblk0 V c 1 t
abbrev blk2 (c : Dev nD) (t : Fin cfg0.N) : Vec Ideal S64x64 .f32 := iblk0 V c 2 t
abbrev blk3 (c : Dev nD) (t : Fin cfg0.N) : Vec Ideal S16x64 .f32 := iblk0 V c 3 t
abbrev blk4 (c : Dev nD) (t : Fin cfg0.N) : Vec Ideal S1x64 .f32 := iblk0 V c 4 t
abbrev arrA (c : Dev nD) : (⟨2, ![1000000, 64]⟩ : Shape).Idx → EReal := V c main_v4
abbrev arrE (c : Dev nD) : (⟨2, ![1000000, 16]⟩ : Shape).Idx → EReal := V c main_v6
abbrev arrW1 (c : Dev nD) : (⟨2, ![64, 64]⟩ : Shape).Idx → EReal := V c main_v8
abbrev arrW2 (c : Dev nD) : (⟨2, ![16, 64]⟩ : Shape).Idx → EReal := V c main_v10
abbrev arrB (c : Dev nD) : (⟨2, ![1, 64]⟩ : Shape).Idx → EReal := V c main_v11

/-- The block indices, decided over the grid: the two edge windows move down the rows with the point, the panels,
    the bias row and the two results stay at block (0, 0). -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Entry (r, k) of the node-feature block at point `t` is entry (10000·t + r, k) of the gathered node rows. -/
theorem blk0_apply (c : Dev nD) (t : Fin cfg0.N) (ht : t.val < 100) (r : Fin 10000) (k : Fin 64) :
    blk0 V c t (ix2 r k) = arrA V c (ix2 (rowAt t.val ht r) k) := by
  have hi := idx0_0 t
  show V c main_v4 (((cfg0.win 0).blk t).view.emb (ix2 r k)) = V c main_v4 (ix2 (rowAt t.val ht r) k)
  congr 1
  funext a
  apply Fin.ext
  match a with
  | ⟨0, _⟩ => show win0_0.index t 0 * 10000 + 1 * r.val = t.val * 10000 + r.val; rw [hi.1]; omega
  | ⟨1, _⟩ => show win0_0.index t 1 * 64 + 1 * k.val = k.val; rw [hi.2]; omega
/-- Likewise the edge-feature block. -/
theorem blk1_apply (c : Dev nD) (t : Fin cfg0.N) (ht : t.val < 100) (r : Fin 10000) (k : Fin 16) :
    blk1 V c t (ix2 r k) = arrE V c (ix2 (rowAt t.val ht r) k) := by
  have hi := idx0_1 t
  show V c main_v6 (((cfg0.win 1).blk t).view.emb (ix2 r k)) = V c main_v6 (ix2 (rowAt t.val ht r) k)
  congr 1
  funext a
  apply Fin.ext
  match a with
  | ⟨0, _⟩ => show win0_1.index t 0 * 10000 + 1 * r.val = t.val * 10000 + r.val; rw [hi.1]; omega
  | ⟨1, _⟩ => show win0_1.index t 1 * 16 + 1 * k.val = k.val; rw [hi.2]; omega
/-- The first weight panel is read whole at every point: its one block is the array. -/
theorem blk2_eq (c : Dev nD) (t : Fin cfg0.N) : blk2 V c t = arrW1 V c := by
  have hi := idx0_2 t
  funext y
  show V c main_v8 (((cfg0.win 2).blk t).view.emb y) = V c main_v8 y
  congr 1
  funext a
  apply Fin.ext
  match a with
  | ⟨0, _⟩ => show win0_2.index t 0 * 64 + 1 * (y 0).val = (y 0).val; rw [hi.1]; omega
  | ⟨1, _⟩ => show win0_2.index t 1 * 64 + 1 * (y 1).val = (y 1).val; rw [hi.2]; omega
/-- Likewise the second panel. -/
theorem blk3_eq (c : Dev nD) (t : Fin cfg0.N) : blk3 V c t = arrW2 V c := by
  have hi := idx0_3 t
  funext y
  show V c main_v10 (((cfg0.win 3).blk t).view.emb y) = V c main_v10 y
  congr 1
  funext a
  apply Fin.ext
  match a with
  | ⟨0, _⟩ => show win0_3.index t 0 * 16 + 1 * (y 0).val = (y 0).val; rw [hi.1]; omega
  | ⟨1, _⟩ => show win0_3.index t 1 * 64 + 1 * (y 1).val = (y 1).val; rw [hi.2]; omega
/-- Likewise the bias row. -/
theorem blk4_eq (c : Dev nD) (t : Fin cfg0.N) : blk4 V c t = arrB V c := by
  have hi := idx0_4 t
  funext y
  show V c main_v11 (((cfg0.win 4).blk t).view.emb y) = V c main_v11 y
  congr 1
  funext a
  apply Fin.ext
  match a with
  | ⟨0, _⟩ => show win0_4.index t 0 * 1 + 1 * (y 0).val = (y 0).val; rw [hi.1]; omega
  | ⟨1, _⟩ => show win0_4.index t 1 * 64 + 1 * (y 1).val = (y 1).val; rw [hi.2]; omega

/-- So entry (r, q) of the activation block at point `t` is the activation of edge 10000·t + r, channel q. -/
theorem pay4_point (c : Dev nD) (t : Fin cfg0.N) (ht : t.val < 100) (r : Fin 10000) (q : Fin 64) :
    (k0_pay4 (F := Ideal) (blk0 V c t) (blk1 V c t) (blk2 V c t) (blk3 V c t) (blk4 V c t) : S10000x64.Idx → EReal) (ix2 r q) = actV V c (rowAt t.val ht r) q :=
  pay4_rows (arrA V c) (arrE V c) (arrW1 V c) (arrW2 V c) (arrB V c) (blk0 V c t) (blk1 V c t) (blk2 V c t) (blk3 V c t) (blk4 V c t)
    t.val ht (blk0_apply V c t ht) (blk1_apply V c t ht) (blk2_eq V c t) (blk3_eq V c t) (blk4_eq V c t) r q

/-- The sum of channel `q`'s activations over the 10000 edges of point `t` (zero past the grid), and of their squares. -/
def tile1 (c : Dev nD) (t : ℕ) (q : Fin 64) : EReal :=
  if h : t < 100 then ∑ r : Fin 10000, actV V c (rowAt t h r) q else 0
def tile2 (c : Dev nD) (t : ℕ) (q : Fin 64) : EReal :=
  if h : t < 100 then ∑ r : Fin 10000, actV V c (rowAt t h r) q * actV V c (rowAt t h r) q else 0

/-- The column sum of the activation block at point `t` is that point's tile sum. -/
theorem point_sum1 (c : Dev nD) (t : Fin cfg0.N) (ht : t.val < 100) (q : Fin 64) :
    ∑ r : Fin 10000, (k0_pay4 (F := Ideal) (blk0 V c t) (blk1 V c t) (blk2 V c t) (blk3 V c t) (blk4 V c t) : S10000x64.Idx → EReal) (ix2 r q) = tile1 V c t.val q := by
  unfold tile1
  rw [dif_pos ht]
  exact Finset.sum_congr rfl fun r _ => pay4_point V c t ht r q

/-- Likewise the column sum of the squares. -/
theorem point_sum2 (c : Dev nD) (t : Fin cfg0.N) (ht : t.val < 100) (q : Fin 64) :
    ∑ r : Fin 10000, (k0_pay4 (F := Ideal) (blk0 V c t) (blk1 V c t) (blk2 V c t) (blk3 V c t) (blk4 V c t) : S10000x64.Idx → EReal) (ix2 r q) * (k0_pay4 (F := Ideal) (blk0 V c t) (blk1 V c t) (blk2 V c t) (blk3 V c t) (blk4 V c t) : S10000x64.Idx → EReal) (ix2 r q) = tile2 V c t.val q := by
  unfold tile2
  rw [dif_pos ht]
  exact Finset.sum_congr rfl fun r _ => by rw [pay4_point V c t ht r q]

/-! ## One point's step, over any staging buffers and blocks -/

/-- At the first point the first result's entry (0, q) is the column sum of the activation block: the reset's zero plus it. -/
theorem stepA5 (c : Dev nD) (i : grid0.Coords) (a1 : Memref sig .tc .vmem S10000x64 .f32) (h1 : a1.IsWhole) (a2 : Memref sig .tc .vmem S10000x16 .f32) (h2 : a2.IsWhole) (a3 : Memref sig .tc .vmem S64x64 .f32) (h3 : a3.IsWhole) (a4 : Memref sig .tc .vmem S16x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : cond0_0 i)
    (x0 : Vec Ideal S10000x64 .f32) (x1 : Vec Ideal S10000x16 .f32) (x2 : Vec Ideal S64x64 .f32) (x3 : Vec Ideal S16x64 .f32) (x4 : Vec Ideal S1x64 .f32) (q : Fin 64) :
    (out0_A_5 (F := Ideal) c i a1 h1 a2 h2 a3 h3 a4 h4 a5 h5 a6 h6 a7 h7 hc x0 x1 x2 x3 x4 : S1x64.Idx → EReal) (ix2 0 q)
      = ∑ r : Fin 10000, (k0_pay4 (F := Ideal) x0 x1 x2 x3 x4 : S10000x64.Idx → EReal) (ix2 r q) := by
  refine (congrFun (out0_A_5_eq c i a1 h1 a2 h2 a3 h3 a4 h4 a5 h5 a6 h6 a7 h7 hc x0 x1 x2 x3 x4) (ix2 0 q)).trans ?_
  refine (pay5_apply x0 x1 x2 x3 x4 (k0_pay2 (F := Ideal)) q).trans ?_
  rw [pay2_apply, zero_add]

/-- Likewise the second result's entry, with the squares. -/
theorem stepA6 (c : Dev nD) (i : grid0.Coords) (a1 : Memref sig .tc .vmem S10000x64 .f32) (h1 : a1.IsWhole) (a2 : Memref sig .tc .vmem S10000x16 .f32) (h2 : a2.IsWhole) (a3 : Memref sig .tc .vmem S64x64 .f32) (h3 : a3.IsWhole) (a4 : Memref sig .tc .vmem S16x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : cond0_0 i)
    (x0 : Vec Ideal S10000x64 .f32) (x1 : Vec Ideal S10000x16 .f32) (x2 : Vec Ideal S64x64 .f32) (x3 : Vec Ideal S16x64 .f32) (x4 : Vec Ideal S1x64 .f32) (q : Fin 64) :
    (out0_A_6 (F := Ideal) c i a1 h1 a2 h2 a3 h3 a4 h4 a5 h5 a6 h6 a7 h7 hc x0 x1 x2 x3 x4 : S1x64.Idx → EReal) (ix2 0 q)
      = ∑ r : Fin 10000, (k0_pay4 (F := Ideal) x0 x1 x2 x3 x4 : S10000x64.Idx → EReal) (ix2 r q) * (k0_pay4 (F := Ideal) x0 x1 x2 x3 x4 : S10000x64.Idx → EReal) (ix2 r q) := by
  refine (congrFun (out0_A_6_eq c i a1 h1 a2 h2 a3 h3 a4 h4 a5 h5 a6 h6 a7 h7 hc x0 x1 x2 x3 x4) (ix2 0 q)).trans ?_
  refine (pay1_apply x0 x1 x2 x3 x4 (k0_pay3 (F := Ideal)) q).trans ?_
  rw [pay3_apply, zero_add]

/-- At a later point the first result's entry (0, q) is what the buffer held there plus the column sum of the activation block. -/
theorem stepB5 (c : Dev nD) (i : grid0.Coords) (a1 : Memref sig .tc .vmem S10000x64 .f32) (h1 : a1.IsWhole) (a2 : Memref sig .tc .vmem S10000x16 .f32) (h2 : a2.IsWhole) (a3 : Memref sig .tc .vmem S64x64 .f32) (h3 : a3.IsWhole) (a4 : Memref sig .tc .vmem S16x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : ¬cond0_0 i)
    (x0 : Vec Ideal S10000x64 .f32) (x1 : Vec Ideal S10000x16 .f32) (x2 : Vec Ideal S64x64 .f32) (x3 : Vec Ideal S16x64 .f32) (x4 : Vec Ideal S1x64 .f32) (xo5 xo6 : Vec Ideal S1x64 .f32) (q : Fin 64) :
    (out0_B_5 (F := Ideal) c i a1 h1 a2 h2 a3 h3 a4 h4 a5 h5 a6 h6 a7 h7 hc x0 x1 x2 x3 x4 xo5 xo6 : S1x64.Idx → EReal) (ix2 0 q)
      = xo5 (ix2 0 q) + ∑ r : Fin 10000, (k0_pay4 (F := Ideal) x0 x1 x2 x3 x4 : S10000x64.Idx → EReal) (ix2 r q) :=
  (congrFun (out0_B_5_eq c i a1 h1 a2 h2 a3 h3 a4 h4 a5 h5 a6 h6 a7 h7 hc x0 x1 x2 x3 x4 xo5 xo6) (ix2 0 q)).trans (pay5_apply x0 x1 x2 x3 x4 xo5 q)

/-- Likewise the second result's entry, with the squares. -/
theorem stepB6 (c : Dev nD) (i : grid0.Coords) (a1 : Memref sig .tc .vmem S10000x64 .f32) (h1 : a1.IsWhole) (a2 : Memref sig .tc .vmem S10000x16 .f32) (h2 : a2.IsWhole) (a3 : Memref sig .tc .vmem S64x64 .f32) (h3 : a3.IsWhole) (a4 : Memref sig .tc .vmem S16x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : ¬cond0_0 i)
    (x0 : Vec Ideal S10000x64 .f32) (x1 : Vec Ideal S10000x16 .f32) (x2 : Vec Ideal S64x64 .f32) (x3 : Vec Ideal S16x64 .f32) (x4 : Vec Ideal S1x64 .f32) (xo5 xo6 : Vec Ideal S1x64 .f32) (q : Fin 64) :
    (out0_B_6 (F := Ideal) c i a1 h1 a2 h2 a3 h3 a4 h4 a5 h5 a6 h6 a7 h7 hc x0 x1 x2 x3 x4 xo5 xo6 : S1x64.Idx → EReal) (ix2 0 q)
      = xo6 (ix2 0 q) + ∑ r : Fin 10000, (k0_pay4 (F := Ideal) x0 x1 x2 x3 x4 : S10000x64.Idx → EReal) (ix2 r q) * (k0_pay4 (F := Ideal) x0 x1 x2 x3 x4 : S10000x64.Idx → EReal) (ix2 r q) :=
  (congrFun (out0_B_6_eq c i a1 h1 a2 h2 a3 h3 a4 h4 a5 h5 a6 h6 a7 h7 hc x0 x1 x2 x3 x4 xo5 xo6) (ix2 0 q)).trans (pay1_apply x0 x1 x2 x3 x4 xo6 q)

/-! ## The invariant: after point `n` the two buffers hold the sums over the points up to `n` -/

/-- By induction on the point: the first point leaves its own tile sums, every later one adds its tile sums to what the
    point before left. -/
theorem outs_eq (c : Dev nD) : ∀ (n : ℕ) (h : n < cfg0.N) (q : Fin 64),
    ((outsAt0 V c n h).1 : S1x64.Idx → EReal) (ix2 0 q) = ∑ t ∈ Finset.range (n + 1), tile1 V c t q
      ∧ ((outsAt0 V c n h).2 : S1x64.Idx → EReal) (ix2 0 q) = ∑ t ∈ Finset.range (n + 1), tile2 V c t q
  | 0, h, q => by
    have hN : cfg0.N = 100 := N_0
    rw [outsAt0_A V c ⟨0, h⟩ rfl]
    dsimp only
    refine ⟨?_, ?_⟩
    · refine (stepA5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (blk0 V c ⟨0, h⟩) (blk1 V c ⟨0, h⟩) (blk2 V c ⟨0, h⟩) (blk3 V c ⟨0, h⟩) (blk4 V c ⟨0, h⟩) q).trans ?_
      rw [point_sum1 V c ⟨0, h⟩ (by show (0 : ℕ) < 100; omega) q, Finset.sum_range_one]
    · refine (stepA6 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (blk0 V c ⟨0, h⟩) (blk1 V c ⟨0, h⟩) (blk2 V c ⟨0, h⟩) (blk3 V c ⟨0, h⟩) (blk4 V c ⟨0, h⟩) q).trans ?_
      rw [point_sum2 V c ⟨0, h⟩ (by show (0 : ℕ) < 100; omega) q, Finset.sum_range_one]
  | n + 1, h, q => by
    have hN : cfg0.N = 100 := N_0
    have hB : ¬(⟨n + 1, h⟩ : Fin cfg0.N).val % 100 = 0 := by dsimp only; omega
    have hlt : (⟨n + 1, h⟩ : Fin cfg0.N).val < 100 := by dsimp only; omega
    obtain ⟨ih1, ih2⟩ := outs_eq c n (Nat.lt_of_succ_lt h) q
    rw [outsAt0_B V c ⟨n + 1, h⟩ hB]
    dsimp only
    refine ⟨?_, ?_⟩
    · refine (stepB5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun h' => hB ((hcond0_0 ⟨n + 1, h⟩).mp h')) (blk0 V c ⟨n + 1, h⟩) (blk1 V c ⟨n + 1, h⟩) (blk2 V c ⟨n + 1, h⟩) (blk3 V c ⟨n + 1, h⟩) (blk4 V c ⟨n + 1, h⟩)
        (outsAt0 V c n (Nat.lt_of_succ_lt h)).1 (outsAt0 V c n (Nat.lt_of_succ_lt h)).2 q).trans ?_
      rw [ih1, point_sum1 V c ⟨n + 1, h⟩ hlt q, Finset.sum_range_succ _ (n + 1)]
    · refine (stepB6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun h' => hB ((hcond0_0 ⟨n + 1, h⟩).mp h')) (blk0 V c ⟨n + 1, h⟩) (blk1 V c ⟨n + 1, h⟩) (blk2 V c ⟨n + 1, h⟩) (blk3 V c ⟨n + 1, h⟩) (blk4 V c ⟨n + 1, h⟩)
        (outsAt0 V c n (Nat.lt_of_succ_lt h)).1 (outsAt0 V c n (Nat.lt_of_succ_lt h)).2 q).trans ?_
      rw [ih2, point_sum2 V c ⟨n + 1, h⟩ hlt q, Finset.sum_range_succ _ (n + 1)]

/-! ## The write-back, and the sum over all edges -/

/-- The last point of the grid. -/
abbrev tLast : Fin cfg0.N := ⟨99, by rw [show cfg0.N = 100 from N_0]; decide⟩

/-- The buffers' contents after a point depend on the point's number only. -/
theorem outsAt0_congr (c : Dev nD) {n n' : ℕ} (h : n < cfg0.N) (h' : n' < cfg0.N) (e : n = n') :
    outsAt0 V c n h = outsAt0 V c n' h' := by
  subst e
  rfl

/-- A result window's one block is the whole [1, 64] array at block index (0, 0): an entry sits at its own coordinates. -/
theorem emb5 (t : Fin cfg0.N) (y : S1x64.Idx) : (((cfg0.win 5).blk t).view.emb y : S1x64.Idx) = y := by
  have hi := idx0_5 t
  funext a
  apply Fin.ext
  match a with
  | ⟨0, _⟩ => show win0_5.index t 0 * 1 + 1 * (y 0).val = (y 0).val; rw [hi.1]; omega
  | ⟨1, _⟩ => show win0_5.index t 1 * 64 + 1 * (y 1).val = (y 1).val; rw [hi.2]; omega

/-- So what a write-back moves out of the buffer is what the array's block reads back, whatever the buffer holds. -/
theorem cut_eq_read5 (t : Fin cfg0.N) (X : Vec Ideal S1x64 .f32) :
    (cfg0.win 5).cut (grid0.coords t) X = ((cfg0.win 5).blk t).view.read (Elt Ideal) X := by
  funext y
  rw [View.read_apply]
  show X y = X (((cfg0.win 5).blk t).view.emb y)
  rw [emb5]

/-- Over any contents `G` that the buffer holds after every point numbered 99: the only write-back is after that point,
    and it writes the whole buffer to the whole array. -/
theorem flushed5_of (c : Dev nD) (G : Vec Ideal S1x64 .f32)
    (hG : ∀ t : Fin cfg0.N, t.val = 99 → (outsAt0 V c t.val t.isLt).1 = G)
    (t : Fin cfg0.N) (hf : (cfg0.win 5).flush t = true) :
    (dat0 V c).flushed 5 t = ((cfg0.win 5).blk t).view.read (Elt Ideal) G := by
  have hN : cfg0.N = 100 := N_0
  have h99 : t.val = 99 := by have := (flush0_5 t).mp hf; have := t.isLt; omega
  show (cfg0.win 5).cut (grid0.coords t) ((dat0 V c).after 5 t) = _
  rw [after0_5, hG t h99]
  exact cut_eq_read5 t G

/-- That point's block covers the array, so the array ends at `G`. -/
theorem final5_of (c : Dev nD) (G : Vec Ideal S1x64 .f32)
    (hG : ∀ t : Fin cfg0.N, t.val = 99 → (outsAt0 V c t.val t.isLt).1 = G) :
    (dat0 V c).arrAt 5 cfg0.N = G :=
  (dat0 V c).arrAt_eq_of_cover 5 G (flushed5_of V c G hG) fun i =>
    ⟨tLast, (flush0_5 tLast).mpr rfl, by
      have hm := View.emb_mem_set ((cfg0.win 5).blk tLast).view i
      rwa [emb5] at hm⟩

/-- Likewise the second result's window. -/
theorem emb6 (t : Fin cfg0.N) (y : S1x64.Idx) : (((cfg0.win 6).blk t).view.emb y : S1x64.Idx) = y := by
  have hi := idx0_6 t
  funext a
  apply Fin.ext
  match a with
  | ⟨0, _⟩ => show win0_6.index t 0 * 1 + 1 * (y 0).val = (y 0).val; rw [hi.1]; omega
  | ⟨1, _⟩ => show win0_6.index t 1 * 64 + 1 * (y 1).val = (y 1).val; rw [hi.2]; omega

/-- Likewise for the second result. -/
theorem cut_eq_read6 (t : Fin cfg0.N) (X : Vec Ideal S1x64 .f32) :
    (cfg0.win 6).cut (grid0.coords t) X = ((cfg0.win 6).blk t).view.read (Elt Ideal) X := by
  funext y
  rw [View.read_apply]
  show X y = X (((cfg0.win 6).blk t).view.emb y)
  rw [emb6]

/-- Likewise for the second result. -/
theorem flushed6_of (c : Dev nD) (G : Vec Ideal S1x64 .f32)
    (hG : ∀ t : Fin cfg0.N, t.val = 99 → (outsAt0 V c t.val t.isLt).2 = G)
    (t : Fin cfg0.N) (hf : (cfg0.win 6).flush t = true) :
    (dat0 V c).flushed 6 t = ((cfg0.win 6).blk t).view.read (Elt Ideal) G := by
  have hN : cfg0.N = 100 := N_0
  have h99 : t.val = 99 := by have := (flush0_6 t).mp hf; have := t.isLt; omega
  show (cfg0.win 6).cut (grid0.coords t) ((dat0 V c).after 6 t) = _
  rw [after0_6, hG t h99]
  exact cut_eq_read6 t G

/-- Likewise for the second result. -/
theorem final6_of (c : Dev nD) (G : Vec Ideal S1x64 .f32)
    (hG : ∀ t : Fin cfg0.N, t.val = 99 → (outsAt0 V c t.val t.isLt).2 = G) :
    (dat0 V c).arrAt 6 cfg0.N = G :=
  (dat0 V c).arrAt_eq_of_cover 6 G (flushed6_of V c G hG) fun i =>
    ⟨tLast, (flush0_6 tLast).mpr rfl, by
      have hm := View.emb_mem_set ((cfg0.win 6).blk tLast).view i
      rwa [emb6] at hm⟩

/-- The 100 tile sums are the sum over all 10⁶ edges: edge `e` is row `e % 10000` of tile `e / 10000`. -/
theorem range_tiles1 (c : Dev nD) (q : Fin 64) :
    ∑ t ∈ Finset.range (99 + 1), tile1 V c t q = Cert.Bridge.sum1 (actV V c) q := by
  unfold Cert.Bridge.sum1
  rw [Cert.LibSums.sum_tiles (show 1000000 = 100 * 10000 from rfl) (fun e => actV V c e q)]
  show ∑ t ∈ Finset.range 100, tile1 V c t q = _
  rw [Finset.sum_range]
  refine Finset.sum_congr rfl fun t _ => ?_
  unfold tile1
  rw [dif_pos t.isLt]
  rfl

/-- Likewise for the squares. -/
theorem range_tiles2 (c : Dev nD) (q : Fin 64) :
    ∑ t ∈ Finset.range (99 + 1), tile2 V c t q = Cert.Bridge.sum2 (actV V c) q := by
  unfold Cert.Bridge.sum2
  rw [Cert.LibSums.sum_tiles (show 1000000 = 100 * 10000 from rfl) (fun e => actV V c e q * actV V c e q)]
  show ∑ t ∈ Finset.range 100, tile2 V c t q = _
  rw [Finset.sum_range]
  refine Finset.sum_congr rfl fun t _ => ?_
  unfold tile2
  rw [dif_pos t.isLt]
  rfl

/-- Result 0 ends at the column sums of the activations over all 10⁶ edges. -/
theorem sum_arr (c : Dev nD) (q : Fin 64) :
    ((dat0 (F := Ideal) V c).arrAt 5 cfg0.N : S1x64.Idx → EReal) (ix2 0 q) = Cert.Bridge.sum1 (actV V c) q := by
  have hG : ∀ t : Fin cfg0.N, t.val = 99 → (outsAt0 V c t.val t.isLt).1 = (outsAt0 V c 99 tLast.isLt).1 :=
    fun t h => congrArg Prod.fst (outsAt0_congr V c t.isLt tLast.isLt h)
  refine (congrFun (final5_of V c (outsAt0 V c 99 tLast.isLt).1 hG) (ix2 0 q)).trans ?_
  refine (outs_eq V c 99 tLast.isLt q).1.trans ?_
  exact range_tiles1 V c q

/-- Result 1 ends at the column sums of the squared activations. -/
theorem sumsq_arr (c : Dev nD) (q : Fin 64) :
    ((dat0 (F := Ideal) V c).arrAt 6 cfg0.N : S1x64.Idx → EReal) (ix2 0 q) = Cert.Bridge.sum2 (actV V c) q := by
  have hG : ∀ t : Fin cfg0.N, t.val = 99 → (outsAt0 V c t.val t.isLt).2 = (outsAt0 V c 99 tLast.isLt).2 :=
    fun t h => congrArg Prod.snd (outsAt0_congr V c t.isLt tLast.isLt h)
  refine (congrFun (final6_of V c (outsAt0 V c 99 tLast.isLt).2 hG) (ix2 0 q)).trans ?_
  refine (outs_eq V c 99 tLast.isLt q).2.trans ?_
  exact range_tiles2 V c q

end Cert.KernelIdeal.Region0

end
-- ==== Proof.Region1.lean ====
/-
  The normalising region: what its result array holds when the grid has run.
-/
import proofs.«410390_j38027640438917_1_alg».proof.Proof.Gen.KernelIdeal.Frame
import proofs.«410390_j38027640438917_1_alg».proof.Proof.PayAct
import proofs.«410390_j38027640438917_1_alg».proof.Proof.Spec
import Idealize.ShloMosaic.Lib.Pipeline.Value

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

/-! ## The payload at an entry -/

/-- The all-zero offset of a whole-block access. -/
theorem zero_offset : (![0, 0] : Fin 2 → Nat) = fun _ => 0 := funext fun a => by fin_cases a <;> rfl

/-- The normalising payload: the activation payload, centred by one broadcast row, scaled by two, shifted by a fourth. -/
theorem normPayload_eq (v0 : Vec Ideal S10000x64 .f32) (v3 : Vec Ideal S10000x16 .f32) (v6 : Vec Ideal S64x64 .f32)
    (v9 : Vec Ideal S16x64 .f32) (v15 v21 v25 v29 v33 : Vec Ideal S1x64 .f32) :
    k1_pay1 (F := Ideal) v0 v3 v6 v9 v15 v21 v25 v29 v33
      = addf (mulf (mulf (subf (k0_pay4 (F := Ideal) v0 v3 v6 v9 v15)
            (broadcastTo S10000x64 (shapeCast S1x64 v21 shapeCasts_S1x64_S1x64) broadcasts_S1x64_S10000x64))
            (broadcastTo S10000x64 (shapeCast S1x64 v25 shapeCasts_S1x64_S1x64) broadcasts_S1x64_S10000x64))
            (broadcastTo S10000x64 (shapeCast S1x64 v29 shapeCasts_S1x64_S1x64) broadcasts_S1x64_S10000x64))
          (broadcastTo S10000x64 (shapeCast S1x64 v33 shapeCasts_S1x64_S1x64) broadcasts_S1x64_S10000x64) := rfl

/-- Entry (r, j) of the normalising payload: the activation at (r, j), minus the mean row's entry j, times the
    reciprocal-deviation row's, times the scale row's, plus the shift row's. -/
theorem normPayload_apply (v0 : Vec Ideal S10000x64 .f32) (v3 : Vec Ideal S10000x16 .f32) (v6 : Vec Ideal S64x64 .f32)
    (v9 : Vec Ideal S16x64 .f32) (v15 v21 v25 v29 v33 : Vec Ideal S1x64 .f32) (r : Fin 10000) (j : Fin 64) :
    k1_pay1 (F := Ideal) v0 v3 v6 v9 v15 v21 v25 v29 v33 (ix2 r j)
      = Cert.Bridge.norm
          (max (((∑ k : Fin 64, v0 (ix2 r k) * v6 (ix2 k j)) + ∑ k : Fin 16, v3 (ix2 r k) * v9 (ix2 k j)) + v15 (ix2 0 j))
            (Ideal.ofBits .f32 0x00000000#32))
          (v21 (ix2 0 j)) (v25 (ix2 0 j)) (v29 (ix2 0 j)) (v33 (ix2 0 j)) := by
  rw [normPayload_eq]
  simp only [addf_apply, mulf_apply, subf_apply, shapeCast_self, broadcastTo_1b_ab_apply, PayAct.pay4_apply]
  rfl

/-- What the body leaves in the result's staging buffer, at entry (r, j), from the nine input blocks. -/
theorem stored_apply (x0 : Vec Ideal S10000x64 .f32) (x1 : Vec Ideal S10000x16 .f32) (x2 : Vec Ideal S64x64 .f32)
    (x3 : Vec Ideal S16x64 .f32) (x4 x5 x6 x7 x8 : Vec Ideal S1x64 .f32) (r : Fin 10000) (j : Fin 64) :
    out1_9 (F := Ideal) x0 x1 x2 x3 x4 x5 x6 x7 x8 (ix2 r j)
      = Cert.Bridge.norm
          (max (((∑ k : Fin 64, x0 (ix2 r k) * x2 (ix2 k j)) + ∑ k : Fin 16, x1 (ix2 r k) * x3 (ix2 k j)) + x4 (ix2 0 j))
            (Ideal.ofBits .f32 0x00000000#32))
          (x5 (ix2 0 j)) (x6 (ix2 0 j)) (x7 (ix2 0 j)) (x8 (ix2 0 j)) := by
  unfold out1_9
  rw [View.canon_unit_zero zero_offset]
  simp only [View.ld_unit_zero (S := S10000x64) zero_offset, View.ld_unit_zero (S := S10000x16) zero_offset, View.ld_unit_zero (S := S64x64) zero_offset,
    View.ld_unit_zero (S := S16x64) zero_offset, View.ld_unit_zero (S := S1x64) zero_offset]
  exact normPayload_apply x0 x1 x2 x3 x4 x5 x6 x7 x8 r j

/-! ## The blocks the body reads -/

variable (V : (c : Dev nD) → (b : Ref sig .tc) → Buf (Elt Ideal) ((c : Thread nD τ).loc b))

/-- The index maps of the three row-blocked windows, over the grid: point t reads and writes row block t, column block 0. -/
theorem index_rowBlocks : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0 :=
  (by decide +kernel : ∀ t : Fin grid1.N, _)

/-- The index maps of the seven resident windows, over the grid: every point reads block (0, 0), the whole array. -/
theorem index_resident : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Row r of block t of the gathered node features is row 10000·t + r of the array. -/
theorem nodeBlock_apply (c : Dev nD) (t : Fin cfg1.N) (r : Fin 10000) (k : Fin 64) (e : Fin 1000000)
    (he : e.val = 10000 * t.val + r.val) :
    (iblk1 (F := Ideal) V c 0 t : S10000x64.Idx → EReal) (ix2 r k) = (V c main_v4 : S1000000x64.Idx → EReal) (ix2 e k) := by
  obtain ⟨h0, h1, -⟩ := index_rowBlocks t
  unfold iblk1
  rw [View.read_apply]
  show V c main_v4 _ = V c main_v4 _
  congr 1
  funext a
  apply Fin.ext
  match a with
  | ⟨0, _⟩ => show win1_0.index t (0 : Fin 2) * 10000 + 1 * r.val = e.val; rw [h0, he]; omega
  | ⟨1, _⟩ => show win1_0.index t (1 : Fin 2) * 64 + 1 * k.val = k.val; rw [h1]; omega

/-- Row r of block t of the edge features is row 10000·t + r of the array. -/
theorem edgeBlock_apply (c : Dev nD) (t : Fin cfg1.N) (r : Fin 10000) (k : Fin 16) (e : Fin 1000000)
    (he : e.val = 10000 * t.val + r.val) :
    (iblk1 (F := Ideal) V c 1 t : S10000x16.Idx → EReal) (ix2 r k) = (V c main_v6 : S1000000x16.Idx → EReal) (ix2 e k) := by
  obtain ⟨-, -, h0, h1, -⟩ := index_rowBlocks t
  unfold iblk1
  rw [View.read_apply]
  show V c main_v6 _ = V c main_v6 _
  congr 1
  funext a
  apply Fin.ext
  match a with
  | ⟨0, _⟩ => show win1_1.index t (0 : Fin 2) * 10000 + 1 * r.val = e.val; rw [h0, he]; omega
  | ⟨1, _⟩ => show win1_1.index t (1 : Fin 2) * 16 + 1 * k.val = k.val; rw [h1]; omega

/-- Row r of block t of any function on the result's index set is its row 10000·t + r. -/
theorem resultBlock_apply (t : Fin cfg1.N) (H : S1000000x64.Idx → EReal) (r : Fin 10000) (j : Fin 64) (e : Fin 1000000)
    (he : e.val = 10000 * t.val + r.val) :
    (((cfg1.win 9).blk t).view.read (Elt Ideal) H : S10000x64.Idx → EReal) (ix2 r j) = H (ix2 e j) := by
  obtain ⟨-, -, -, -, h0, h1⟩ := index_rowBlocks t
  rw [View.read_apply]
  show H _ = H _
  congr 1
  funext a
  apply Fin.ext
  match a with
  | ⟨0, _⟩ => show win1_9.index t (0 : Fin 2) * 10000 + 1 * r.val = e.val; rw [h0, he]; omega
  | ⟨1, _⟩ => show win1_9.index t (1 : Fin 2) * 64 + 1 * j.val = j.val; rw [h1]; omega

/-! ## The resident windows: every point reads the whole array -/

/-- Window 2 holds the node-feature panel of the weights whole at every point. -/
theorem whole_nodePanel (c : Dev nD) (t : Fin cfg1.N) :
    (iblk1 (F := Ideal) V c 2 t : S64x64.Idx → EReal) = (V c main_v8 : S64x64.Idx → EReal) := by
  obtain ⟨h0, h1, -⟩ := index_resident t
  funext y
  unfold iblk1
  rw [View.read_apply]
  show V c main_v8 _ = V c main_v8 y
  congr 1
  funext a
  apply Fin.ext
  match a with
  | ⟨0, _⟩ => show win1_2.index t (0 : Fin 2) * 64 + 1 * (y 0).val = (y 0).val; rw [h0]; omega
  | ⟨1, _⟩ => show win1_2.index t (1 : Fin 2) * 64 + 1 * (y 1).val = (y 1).val; rw [h1]; omega

/-- Window 3 holds the edge-feature panel of the weights whole at every point. -/
theorem whole_edgePanel (c : Dev nD) (t : Fin cfg1.N) :
    (iblk1 (F := Ideal) V c 3 t : S16x64.Idx → EReal) = (V c main_v10 : S16x64.Idx → EReal) := by
  obtain ⟨-, -, h0, h1, -⟩ := index_resident t
  funext y
  unfold iblk1
  rw [View.read_apply]
  show V c main_v10 _ = V c main_v10 y
  congr 1
  funext a
  apply Fin.ext
  match a with
  | ⟨0, _⟩ => show win1_3.index t (0 : Fin 2) * 16 + 1 * (y 0).val = (y 0).val; rw [h0]; omega
  | ⟨1, _⟩ => show win1_3.index t (1 : Fin 2) * 64 + 1 * (y 1).val = (y 1).val; rw [h1]; omega

/-- Window 4 holds the bias row whole at every point. -/
theorem whole_bias (c : Dev nD) (t : Fin cfg1.N) :
    (iblk1 (F := Ideal) V c 4 t : S1x64.Idx → EReal) = (V c main_v11 : S1x64.Idx → EReal) := by
  obtain ⟨-, -, -, -, h0, h1, -⟩ := index_resident t
  funext y
  unfold iblk1
  rw [View.read_apply]
  show V c main_v11 _ = V c main_v11 y
  congr 1
  funext a
  apply Fin.ext
  match a with
  | ⟨0, _⟩ => show win1_4.index t (0 : Fin 2) * 1 + 1 * (y 0).val = (y 0).val; rw [h0]; omega
  | ⟨1, _⟩ => show win1_4.index t (1 : Fin 2) * 64 + 1 * (y 1).val = (y 1).val; rw [h1]; omega

/-- Window 5 holds the mean row whole at every point. -/
theorem whole_mean (c : Dev nD) (t : Fin cfg1.N) :
    (iblk1 (F := Ideal) V c 5 t : S1x64.Idx → EReal) = (V c main_v24 : S1x64.Idx → EReal) := by
  obtain ⟨-, -, -, -, -, -, h0, h1, -⟩ := index_resident t
  funext y
  unfold iblk1
  rw [View.read_apply]
  show V c main_v24 _ = V c main_v24 y
  congr 1
  funext a
  apply Fin.ext
  match a with
  | ⟨0, _⟩ => show win1_5.index t (0 : Fin 2) * 1 + 1 * (y 0).val = (y 0).val; rw [h0]; omega
  | ⟨1, _⟩ => show win1_5.index t (1 : Fin 2) * 64 + 1 * (y 1).val = (y 1).val; rw [h1]; omega

/-- Window 6 holds the reciprocal-deviation row whole at every point. -/
theorem whole_istd (c : Dev nD) (t : Fin cfg1.N) :
    (iblk1 (F := Ideal) V c 6 t : S1x64.Idx → EReal) = (V c main_v25 : S1x64.Idx → EReal) := by
  obtain ⟨-, -, -, -, -, -, -, -, h0, h1, -⟩ := index_resident t
  funext y
  unfold iblk1
  rw [View.read_apply]
  show V c main_v25 _ = V c main_v25 y
  congr 1
  funext a
  apply Fin.ext
  match a with
  | ⟨0, _⟩ => show win1_6.index t (0 : Fin 2) * 1 + 1 * (y 0).val = (y 0).val; rw [h0]; omega
  | ⟨1, _⟩ => show win1_6.index t (1 : Fin 2) * 64 + 1 * (y 1).val = (y 1).val; rw [h1]; omega

/-- Window 7 holds the scale row whole at every point. -/
theorem whole_scale (c : Dev nD) (t : Fin cfg1.N) :
    (iblk1 (F := Ideal) V c 7 t : S1x64.Idx → EReal) = (V c main_v26 : S1x64.Idx → EReal) := by
  obtain ⟨-, -, -, -, -, -, -, -, -, -, h0, h1, -⟩ := index_resident t
  funext y
  unfold iblk1
  rw [View.read_apply]
  show V c main_v26 _ = V c main_v26 y
  congr 1
  funext a
  apply Fin.ext
  match a with
  | ⟨0, _⟩ => show win1_7.index t (0 : Fin 2) * 1 + 1 * (y 0).val = (y 0).val; rw [h0]; omega
  | ⟨1, _⟩ => show win1_7.index t (1 : Fin 2) * 64 + 1 * (y 1).val = (y 1).val; rw [h1]; omega

/-- Window 8 holds the shift row whole at every point. -/
theorem whole_shift (c : Dev nD) (t : Fin cfg1.N) :
    (iblk1 (F := Ideal) V c 8 t : S1x64.Idx → EReal) = (V c main_v27 : S1x64.Idx → EReal) := by
  obtain ⟨-, -, -, -, -, -, -, -, -, -, -, -, h0, h1⟩ := index_resident t
  funext y
  unfold iblk1
  rw [View.read_apply]
  show V c main_v27 _ = V c main_v27 y
  congr 1
  funext a
  apply Fin.ext
  match a with
  | ⟨0, _⟩ => show win1_8.index t (0 : Fin 2) * 1 + 1 * (y 0).val = (y 0).val; rw [h0]; omega
  | ⟨1, _⟩ => show win1_8.index t (1 : Fin 2) * 64 + 1 * (y 1).val = (y 1).val; rw [h1]; omega

/-! ## From the blocks to the array -/

/-- The whole result as one function of the region's operands: entry (e, j) is the activation of edge e on channel j,
    normalised by entry j of the four channel rows. -/
def normAll (c : Dev nD) : S1000000x64.Idx → EReal := fun i =>
  Cert.Bridge.norm
    (Cert.Bridge.act (V c main_v4) (V c main_v6) (V c main_v8) (V c main_v10) (V c main_v11) (Cert.Bridge.c0 i) (Cert.Bridge.c1 i))
    ((V c main_v24 : S1x64.Idx → EReal) (ix2 0 (Cert.Bridge.c1 i))) ((V c main_v25 : S1x64.Idx → EReal) (ix2 0 (Cert.Bridge.c1 i)))
    ((V c main_v26 : S1x64.Idx → EReal) (ix2 0 (Cert.Bridge.c1 i))) ((V c main_v27 : S1x64.Idx → EReal) (ix2 0 (Cert.Bridge.c1 i)))

/-- What point t writes back is row block t of that function. -/
theorem flushed_eq (c : Dev nD) (t : Fin cfg1.N) :
    (dat1 (F := Ideal) V c).flushed 9 t = ((cfg1.win 9).blk t).view.read (Elt Ideal) (normAll V c) := by
  show (cfg1.win 9).cut (grid1.coords t) ((dat1 (F := Ideal) V c).after 9 t) = _
  rw [after1_9]
  funext y
  obtain ⟨r, j, rfl⟩ : ∃ (r : Fin 10000) (j : Fin 64), y = ix2 r j := ⟨y 0, y 1, eq_ix2 y⟩
  have hN : grid1.N = 100 := N_1
  have ht : t.val < 100 := hN ▸ t.isLt
  obtain ⟨e, he⟩ : ∃ e : Fin 1000000, e.val = 10000 * t.val + r.val := ⟨⟨10000 * t.val + r.val, by have := r.isLt; omega⟩, rfl⟩
  refine (stored_apply _ _ _ _ _ _ _ _ _ r j).trans ?_
  refine Eq.trans ?_ (resultBlock_apply t (normAll V c) r j e he).symm
  rw [whole_nodePanel V c t, whole_edgePanel V c t, whole_bias V c t, whole_mean V c t, whole_istd V c t, whole_scale V c t, whole_shift V c t]
  simp only [nodeBlock_apply V c t r _ e he, edgeBlock_apply V c t r _ e he]
  rfl

/-- An index of the result lies in point t's block iff each coordinate lies in the block's range on its axis. -/
theorem mem_rowBlock (t : Fin cfg1.N) (i : S1000000x64.Idx) :
    i ∈ ((cfg1.win 9).blk t).view.set ↔ ∀ a : Fin 2, win1_9.index t a * S10000x64.size a ≤ (i a).val
      ∧ (i a).val < win1_9.index t a * S10000x64.size a + S10000x64.size a := by
  show i ∈ ((View.whole main_v28).slice (win1_9.rect t)).set ↔ _
  rw [View.set_slice_whole, Rect.mem_set_unit]
  exact Iff.rfl

/-- The hundred row blocks cover the result: row e lies in block e / 10000, and every point writes its block back. -/
theorem rowBlocks_cover (i : S1000000x64.Idx) :
    ∃ t : Fin cfg1.N, (cfg1.win 9).flush t = true ∧ i ∈ ((cfg1.win 9).blk t).view.set := by
  have hi0 : (i 0).val < 1000000 := (i 0).isLt
  have hi1 : (i 1).val < 64 := (i 1).isLt
  have hN : grid1.N = 100 := N_1
  obtain ⟨t, ht⟩ : ∃ t : Fin cfg1.N, t.val = (i 0).val / 10000 :=
    ⟨⟨(i 0).val / 10000, by show _ < grid1.N; rw [hN]; omega⟩, rfl⟩
  obtain ⟨-, -, -, -, h0, h1⟩ := index_rowBlocks t
  refine ⟨t, flush1_9 t, ?_⟩
  rw [mem_rowBlock]
  intro a
  match a with
  | ⟨0, _⟩ =>
    show win1_9.index t (0 : Fin 2) * 10000 ≤ (i 0).val ∧ (i 0).val < win1_9.index t (0 : Fin 2) * 10000 + 10000
    rw [h0, ht]; omega
  | ⟨1, _⟩ =>
    show win1_9.index t (1 : Fin 2) * 64 ≤ (i 1).val ∧ (i 1).val < win1_9.index t (1 : Fin 2) * 64 + 64
    rw [h1]; omega

/-- The result array after the grid has run is that function. -/
theorem arr_eq (c : Dev nD) : (dat1 (F := Ideal) V c).arrAt 9 cfg1.N = normAll V c :=
  (dat1 (F := Ideal) V c).arrAt_eq_of_cover 9 (normAll V c) (fun t _ => flushed_eq V c t) rowBlocks_cover

/-- Entry (e, j) of the result: the activation of edge e on channel j, normalised by the four channel rows. -/
theorem out_arr (c : Dev nD) (e : Fin 1000000) (j : Fin 64) :
    ((dat1 (F := Ideal) V c).arrAt 9 cfg1.N : S1000000x64.Idx → EReal) (ix2 e j)
      = Cert.Bridge.norm (Cert.Bridge.act (V c main_v4) (V c main_v6) (V c main_v8) (V c main_v10) (V c main_v11) e j)
          ((V c main_v24 : S1x64.Idx → EReal) (ix2 0 j)) ((V c main_v25 : S1x64.Idx → EReal) (ix2 0 j))
          ((V c main_v26 : S1x64.Idx → EReal) (ix2 0 j)) ((V c main_v27 : S1x64.Idx → EReal) (ix2 0 j)) := by
  rw [arr_eq V c]
  rfl

end Cert.KernelIdeal.Region1

end
-- ==== Proof.KernelValue.lean ====
/-
  The idealized kernel program's result as one function of its arguments: the activations from the gathered rows,
  the scaled edge features and the two weight panels; their column sums turned into mean and reciprocal deviation;
  the normalised activations scatter-averaged over the destination nodes, plus the node features.
-/
import proofs.«410390_j38027640438917_1_alg».proof.Proof.HostK
import proofs.«410390_j38027640438917_1_alg».proof.Proof.HostIdx
import proofs.«410390_j38027640438917_1_alg».proof.Proof.Region0
import proofs.«410390_j38027640438917_1_alg».proof.Proof.Region1
import proofs.«410390_j38027640438917_1_alg».proof.Proof.Spec

noncomputable section

namespace Cert.KernelIdeal.KVal

open Idealize.ShloMosaic Idealize.ShloMosaic.TcCoe Idealize.ShloMosaic.ValueIdx Idealize.SL.Sem
open Cert.KernelIdeal Cert.KernelIdeal.Gen Cert.KernelIdeal.HostDefs

/-- The kernel program's activations of the whole edge set, from its arguments. -/
abbrev actOf (x : FVec Ideal S100000x64 .f32) (ei : IVec S2x1000000 32) (ea : FVec Ideal S1000000x16 .f32)
    (W : FVec Ideal S64x80 .f32) (b : FVec Ideal S64 .f32) : Fin 1000000 → Fin 64 → EReal :=
  Cert.Bridge.act (atomK x (rowOf ei)) (efeat ea) (w1t W) (w2t W) (row1 b)

/-- The kernel program's result as a function of its arguments. -/
def kOut (x : FVec Ideal S100000x64 .f32) (ei : IVec S2x1000000 32) (ea : FVec Ideal S1000000x16 .f32)
    (W : FVec Ideal S64x80 .f32) (b g bt : FVec Ideal S64 .f32) : FVec Ideal S100000x64 .f32 :=
  tail x (colOf ei)
    (fun i => Cert.Bridge.norm (actOf x ei ea W b (Cert.Bridge.c0 i) (Cert.Bridge.c1 i))
      (Cert.Bridge.meanK (Cert.Bridge.sum1 (actOf x ei ea W b) (Cert.Bridge.c1 i)))
      (Cert.Bridge.istdK (Cert.Bridge.sum1 (actOf x ei ea W b) (Cert.Bridge.c1 i)) (Cert.Bridge.sum2 (actOf x ei ea W b) (Cert.Bridge.c1 i)))
      (g (ix1 (Cert.Bridge.c1 i))) (bt (ix1 (Cert.Bridge.c1 i))))

variable (m : (ℓ : Loc nD τ sig) → Buf (Elt Ideal) ℓ) (ρ : Dev nD → PrngReg)

/-- The activations the two regions see are those of the arguments: the five shared operands are the host stages. -/
theorem act_V3 (c : Dev nD) :
    Cert.Bridge.act (V3 m ρ c main_v4) (V3 m ρ c main_v6) (V3 m ρ c main_v8) (V3 m ρ c main_v10) (V3 m ρ c main_v11)
      = actOf (m ((c : Thread nD τ).loc main_arg0)) (m ((c : Thread nD τ).loc main_arg1)) (m ((c : Thread nD τ).loc main_arg2))
          (m ((c : Thread nD τ).loc main_arg3)) (m ((c : Thread nD τ).loc main_arg4)) := by
  rw [HostK.V3_v4, HostK.V3_v6, HostK.V3_v8, HostK.V3_v10, HostK.V3_v11]

/-- The fold's last contents of the result buffer is `kOut` of the launch contents of the arguments. -/
theorem W7_eq (c : Dev nD) : (W7 m ρ c (Proc.devRef .tc main_v41) : S100000x64.Idx → EReal)
    = kOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [HostK.W7_v41]
  unfold kOut
  refine congrArg (tail _ _) ?_
  funext i
  obtain ⟨e, j, rfl⟩ : ∃ (e : Fin 1000000) (j : Fin 64), i = ix2 e j := ⟨i 0, i 1, eq_ix2 i⟩
  refine (Region1.out_arr (V5 m ρ) c e j).trans ?_
  rw [HostK.V5_v4, HostK.V5_v6, HostK.V5_v8, HostK.V5_v10, HostK.V5_v11, act_V3,
    HostK.V5_v24, HostK.V5_v25, HostK.V5_v26, HostK.V5_v27,
    HostIdx.row1_apply, HostIdx.row1_apply, HostIdx.row1_apply, HostIdx.row1_apply,
    HostIdx.meanV_apply, HostIdx.istdV_apply,
    Region0.sum_arr (V3 m ρ) c j, Region0.sumsq_arr (V3 m ρ) c j,
    show Region0.actV (V3 m ρ) c = _ from act_V3 m ρ c, Cert.Bridge.c0_ix2, Cert.Bridge.c1_ix2]

end Cert.KernelIdeal.KVal

end
-- ==== Proof.RefValue.lean ====
/-
  The idealized reference's run, with its result read as the closing scatter-mean of the normalised activations.
-/
import proofs.«410390_j38027640438917_1_alg».proof.Proof.Gen.ReferenceIdeal.Run
import proofs.«410390_j38027640438917_1_alg».proof.Proof.Gen.ReferenceIdeal.Read
import proofs.«410390_j38027640438917_1_alg».proof.Proof.HostDefs
import proofs.«410390_j38027640438917_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefVal

open Idealize.ShloMosaic Idealize.ShloMosaic.TcCoe Idealize.ShloMosaic.ValueIdx Idealize.SL.Sem
open Cert.ReferenceIdeal

/-- The reference's activations of the whole edge set, from its arguments. -/
abbrev actOf (x : FVec Ideal Cert.KernelIdeal.S100000x64 .f32) (ei : IVec Cert.KernelIdeal.S2x1000000 32)
    (ea : FVec Ideal Cert.KernelIdeal.S1000000x16 .f32) (W : FVec Ideal Cert.KernelIdeal.S64x80 .f32)
    (b : FVec Ideal Cert.KernelIdeal.S64 .f32) : Fin 1000000 → Fin 64 → EReal :=
  Cert.Bridge.actR (Cert.KernelIdeal.HostDefs.gath x (Cert.KernelIdeal.HostDefs.rowOf ei)) (Cert.KernelIdeal.HostDefs.efeat ea) W b

/-- The reference's result as a function of its arguments: the normalised activations, scatter-averaged over the
    destination nodes, plus the node features. -/
def refOut (x : FVec Ideal Cert.KernelIdeal.S100000x64 .f32) (ei : IVec Cert.KernelIdeal.S2x1000000 32)
    (ea : FVec Ideal Cert.KernelIdeal.S1000000x16 .f32) (W : FVec Ideal Cert.KernelIdeal.S64x80 .f32)
    (b g bt : FVec Ideal Cert.KernelIdeal.S64 .f32) : FVec Ideal Cert.KernelIdeal.S100000x64 .f32 :=
  Cert.KernelIdeal.HostDefs.tail x (Cert.KernelIdeal.HostDefs.colOf ei)
    (fun i => Cert.Bridge.norm (actOf x ei ea W b (Cert.Bridge.c0 i) (Cert.Bridge.c1 i)) (Cert.Bridge.meanR (actOf x ei ea W b) (Cert.Bridge.c1 i))
      (Cert.Bridge.istdR (actOf x ei ea W b) (Cert.Bridge.c1 i)) (g (ix1 (Cert.Bridge.c1 i))) (bt (ix1 (Cert.Bridge.c1 i))))

/-- The reference's gathered node rows are the gather along the wrapped source index. -/
theorem gathered_eq (x0 : (⟨S100000x64, .f32⟩ : BufTy).Contents (Elt Ideal)) (x1 : (⟨S2x1000000, .i32⟩ : BufTy).Contents (Elt Ideal)) :
    Read.val_main_v12 (F := Ideal) x0 x1 = Cert.KernelIdeal.HostDefs.gath x0 (Cert.KernelIdeal.HostDefs.rowOf x1) := by
  unfold Read.val_main_v12 Read.val_main_v11 Read.val_main_v10 Read.val_main_v9 Read.val_main_v8 Read.val_main_v7 Read.val_main_v6
    Read.val_main_c_0 Read.val_main_c Read.val_main_v1 Read.val_main_v0
  unfold Cert.KernelIdeal.HostDefs.gath Cert.KernelIdeal.HostDefs.wrapIdx Cert.KernelIdeal.HostDefs.rowOf
  rfl

/-- The reference's scaled edge features. -/
theorem efeat_eq (x2 : (⟨S1000000x16, .f32⟩ : BufTy).Contents (Elt Ideal)) :
    Read.val_main_v5 (F := Ideal) x2 = Cert.KernelIdeal.HostDefs.efeat x2 := by
  unfold Read.val_main_v5 Read.val_main_v4 Read.val_main_cst
  unfold Cert.KernelIdeal.HostDefs.efeat
  rfl

/-- The reference's closing stretch is the shared scatter-mean with the residual. -/
theorem closing_eq (x0 : (⟨S100000x64, .f32⟩ : BufTy).Contents (Elt Ideal)) (x1 : (⟨S2x1000000, .i32⟩ : BufTy).Contents (Elt Ideal))
    (x2 : (⟨S1000000x16, .f32⟩ : BufTy).Contents (Elt Ideal)) (x3 : (⟨S64x80, .f32⟩ : BufTy).Contents (Elt Ideal))
    (x4 x5 x6 : (⟨S64, .f32⟩ : BufTy).Contents (Elt Ideal)) :
    Read.val_main_v57 (F := Ideal) x0 x1 x2 x3 x4 x5 x6
      = Cert.KernelIdeal.HostDefs.tail x0 (Cert.KernelIdeal.HostDefs.colOf x1) (Read.val_main_v44 (F := Ideal) x0 x1 x2 x3 x4 x5 x6) := by
  unfold Read.val_main_v57 Read.val_main_v56 Read.val_main_v55 Read.val_main_v54 Read.val_main_v53 Read.val_main_v52 Read.val_main_cst_9
    Read.val_main_v51 Read.val_main_v50 Read.val_main_v49 Read.val_main_cst_8 Read.val_main_v48 Read.val_main_cst_7
    Read.val_main_v47 Read.val_main_v46 Read.val_main_v45 Read.val_main_cst_6 Read.val_main_v3 Read.val_main_v2
  generalize Read.val_main_v44 (F := Ideal) x0 x1 x2 x3 x4 x5 x6 = un
  unfold Cert.KernelIdeal.HostDefs.tail Cert.KernelIdeal.HostDefs.colOf
  rfl

/-- A row of the joined features, read in its first 64 columns: the gathered node row. -/
theorem cat_left {α : Type} (A : S1000000x64.Idx → α) (Ef : S1000000x16.Idx → α) (e : Fin 1000000) (k : Fin 80) (h : k.val < 64) :
    concatenate S1000000x80 1 [⟨S1000000x64, A⟩, ⟨S1000000x16, Ef⟩] Gen.concatenates_S1000000x64_S1000000x16_S1000000x80_d1 (ix2 e k)
      = A (ix2 e ⟨k.val, h⟩) :=
  concatenate_pair_apply_left 1 A Ef _ (ix2 e k) rfl (ix2 e ⟨k.val, h⟩) (fun b => match b with
    | ⟨0, _⟩ => rfl
    | ⟨1, _⟩ => rfl)

/-- A row of the joined features, read past column 64: the edge features, 64 columns back. -/
theorem cat_right {α : Type} (A : S1000000x64.Idx → α) (Ef : S1000000x16.Idx → α) (e : Fin 1000000) (k : Fin 80) (h : ¬ k.val < 64) :
    concatenate S1000000x80 1 [⟨S1000000x64, A⟩, ⟨S1000000x16, Ef⟩] Gen.concatenates_S1000000x64_S1000000x16_S1000000x80_d1 (ix2 e k)
      = Ef (ix2 e ⟨k.val - 64, by have := k.isLt; omega⟩) :=
  concatenate_pair_apply_right 1 A Ef _ (ix2 e k) rfl rfl (ix2 e ⟨k.val - 64, by have := k.isLt; omega⟩) (fun b => match b with
    | ⟨0, _⟩ => fun _ => rfl
    | ⟨1, _⟩ => fun hb => absurd rfl hb)
    (by show k.val - 64 + 64 = k.val; omega)

/-- The joined features at (e, k). -/
theorem cat_apply {α : Type} (A : S1000000x64.Idx → α) (Ef : S1000000x16.Idx → α) (e : Fin 1000000) (k : Fin 80) :
    concatenate S1000000x80 1 [⟨S1000000x64, A⟩, ⟨S1000000x16, Ef⟩] Gen.concatenates_S1000000x64_S1000000x16_S1000000x80_d1 (ix2 e k)
      = if h : k.val < 64 then A (ix2 e ⟨k.val, h⟩) else Ef (ix2 e ⟨k.val - 64, by have := k.isLt; omega⟩) := by
  by_cases h : k.val < 64
  · rw [dif_pos h]; exact cat_left A Ef e k h
  · rw [dif_neg h]; exact cat_right A Ef e k h

/-- The reference's activation at edge e, channel j. -/
theorem act_apply (x0 : (⟨S100000x64, .f32⟩ : BufTy).Contents (Elt Ideal)) (x1 : (⟨S2x1000000, .i32⟩ : BufTy).Contents (Elt Ideal))
    (x2 : (⟨S1000000x16, .f32⟩ : BufTy).Contents (Elt Ideal)) (x3 : (⟨S64x80, .f32⟩ : BufTy).Contents (Elt Ideal))
    (x4 : (⟨S64, .f32⟩ : BufTy).Contents (Elt Ideal)) (e : Fin 1000000) (j : Fin 64) :
    Read.val_main_v19 (F := Ideal) x0 x1 x2 x3 x4 (ix2 e j) = actOf x0 x1 x2 x3 x4 e j := by
  have eW : ∀ k : Fin 80, Read.idx_main_v14 (Read.ridx_main_v15 (ix2 e j) k) = ix2 j k := fun k =>
    funext fun a => Fin.ext (by match a with | ⟨0, _⟩ => rfl | ⟨1, _⟩ => rfl)
  have eL : ∀ k : Fin 80, Read.lidx_main_v15 (ix2 e j) k = ix2 e k := fun k =>
    funext fun a => Fin.ext (by match a with | ⟨0, _⟩ => rfl | ⟨1, _⟩ => rfl)
  have eB : Read.idx_main_v16 (Read.idx_main_v17 (ix2 e j)) = ix1 j :=
    funext fun a => Fin.ext (by match a with | ⟨0, _⟩ => rfl)
  rw [Read.val_main_v19_apply, Read.val_main_v18_apply, Read.val_main_v15_apply, Read.val_main_v17_apply, Read.val_main_v16_apply,
    Read.val_main_call0_v0_apply, Read.val_main_call0_cst_apply, eB]
  simp only [Read.val_main_v14_apply, eW, eL]
  unfold Read.val_main_v13
  simp only [cat_apply, gathered_eq, efeat_eq]
  simp only [Ideal.maximumf_def, Ideal.addf_def, Ideal.ofBits_def]
  rfl

/-- The reference's mean of channel j. -/
theorem mean_apply (x0 : (⟨S100000x64, .f32⟩ : BufTy).Contents (Elt Ideal)) (x1 : (⟨S2x1000000, .i32⟩ : BufTy).Contents (Elt Ideal))
    (x2 : (⟨S1000000x16, .f32⟩ : BufTy).Contents (Elt Ideal)) (x3 : (⟨S64x80, .f32⟩ : BufTy).Contents (Elt Ideal))
    (x4 : (⟨S64, .f32⟩ : BufTy).Contents (Elt Ideal)) (j : Fin 64) :
    Read.val_main_v22 (F := Ideal) x0 x1 x2 x3 x4 (ix1 j) = Cert.Bridge.meanR (actOf x0 x1 x2 x3 x4) j := by
  have eS : ∀ k : Fin 1000000, Read.idx_main_v20 (ix1 j) k = ix2 k j := fun k =>
    funext fun a => Fin.ext (by match a with | ⟨0, _⟩ => rfl | ⟨1, _⟩ => rfl)
  rw [Read.val_main_v22_apply, Read.val_main_v20_apply, Read.val_main_v21_apply, Read.val_main_cst_2_apply, Read.val_main_cst_1_apply]
  simp only [eS, act_apply]
  simp only [Ideal.hostDivf_def, Ideal.ofBits_def]
  rfl

/-- The reference's reciprocal deviation of channel j. -/
theorem istd_apply (x0 : (⟨S100000x64, .f32⟩ : BufTy).Contents (Elt Ideal)) (x1 : (⟨S2x1000000, .i32⟩ : BufTy).Contents (Elt Ideal))
    (x2 : (⟨S1000000x16, .f32⟩ : BufTy).Contents (Elt Ideal)) (x3 : (⟨S64x80, .f32⟩ : BufTy).Contents (Elt Ideal))
    (x4 : (⟨S64, .f32⟩ : BufTy).Contents (Elt Ideal)) (j : Fin 64) :
    Read.val_main_v35 (F := Ideal) x0 x1 x2 x3 x4 (ix1 j) = Cert.Bridge.istdR (actOf x0 x1 x2 x3 x4) j := by
  have eS : ∀ k : Fin 1000000, Read.idx_main_v27 (ix1 j) k = ix2 k j := fun k =>
    funext fun a => Fin.ext (by match a with | ⟨0, _⟩ => rfl | ⟨1, _⟩ => rfl)
  have eM : ∀ k : Fin 1000000, Read.idx_main_v23 (Read.idx_main_v24 (ix2 k j)) = ix1 j := fun k =>
    funext fun a => Fin.ext (by match a with | ⟨0, _⟩ => rfl)
  rw [Read.val_main_v35_apply, Read.val_main_v34_apply, Read.val_main_v29_apply, Read.val_main_v27_apply, Read.val_main_v28_apply,
    Read.val_main_cst_4_apply, Read.val_main_cst_3_apply, Read.val_main_v33_apply, Read.val_main_cst_5_apply]
  simp only [eS, Read.val_main_v26_apply, Read.val_main_v25_apply, Read.val_main_v24_apply, Read.val_main_v23_apply, eM, act_apply, mean_apply]
  simp only [Ideal.hostUnary_rsqrt_def, Ideal.hostDivf_def, Ideal.ofBits_def, Ideal.addf_def, Ideal.subf_def, Ideal.mulf_def]
  rfl

/-- The reference's normalised activations, index by index. -/
theorem normed_eq (x0 : (⟨S100000x64, .f32⟩ : BufTy).Contents (Elt Ideal)) (x1 : (⟨S2x1000000, .i32⟩ : BufTy).Contents (Elt Ideal))
    (x2 : (⟨S1000000x16, .f32⟩ : BufTy).Contents (Elt Ideal)) (x3 : (⟨S64x80, .f32⟩ : BufTy).Contents (Elt Ideal))
    (x4 x5 x6 : (⟨S64, .f32⟩ : BufTy).Contents (Elt Ideal)) :
    Read.val_main_v44 (F := Ideal) x0 x1 x2 x3 x4 x5 x6
      = fun i => Cert.Bridge.norm (actOf x0 x1 x2 x3 x4 (Cert.Bridge.c0 i) (Cert.Bridge.c1 i))
          (Cert.Bridge.meanR (actOf x0 x1 x2 x3 x4) (Cert.Bridge.c1 i)) (Cert.Bridge.istdR (actOf x0 x1 x2 x3 x4) (Cert.Bridge.c1 i))
          (x5 (ix1 (Cert.Bridge.c1 i))) (x6 (ix1 (Cert.Bridge.c1 i))) := by
  funext i
  obtain ⟨e, j, rfl⟩ : ∃ (e : Fin 1000000) (j : Fin 64), i = ix2 e j := ⟨i 0, i 1, eq_ix2 i⟩
  have eM : Read.idx_main_v30 (Read.idx_main_v31 (ix2 e j)) = ix1 j :=
    funext fun a => Fin.ext (by match a with | ⟨0, _⟩ => rfl)
  have eI : Read.idx_main_v36 (Read.idx_main_v37 (ix2 e j)) = ix1 j :=
    funext fun a => Fin.ext (by match a with | ⟨0, _⟩ => rfl)
  have eG : Read.idx_main_v39 (Read.idx_main_v40 (ix2 e j)) = ix1 j :=
    funext fun a => Fin.ext (by match a with | ⟨0, _⟩ => rfl)
  have eT : Read.idx_main_v42 (Read.idx_main_v43 (ix2 e j)) = ix1 j :=
    funext fun a => Fin.ext (by match a with | ⟨0, _⟩ => rfl)
  rw [Read.val_main_v44_apply, Read.val_main_v41_apply, Read.val_main_v38_apply, Read.val_main_v32_apply, Read.val_main_v31_apply,
    Read.val_main_v30_apply, Read.val_main_v37_apply, Read.val_main_v36_apply, Read.val_main_v40_apply, Read.val_main_v39_apply,
    Read.val_main_v43_apply, Read.val_main_v42_apply, eM, eI, eG, eT, act_apply, mean_apply, istd_apply]
  simp only [Cert.Bridge.c0_ix2, Cert.Bridge.c1_ix2, Ideal.addf_def, Ideal.subf_def, Ideal.mulf_def]
  rfl

/-- The run's composed result term is the reference's result function of the arguments. -/
theorem result_eq (m : (ℓ : Loc nD τ sig) → Buf (Elt Ideal) ℓ) (c : Dev nD) :
    Cert.ReferenceIdeal.Value.res_main_v57 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [Read.val_main_v57_eq, closing_eq, normed_eq]
  rfl

/-- Every weakly fair execution of the reference terminates with its result at `refOut` of the launch contents of
    its arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v57)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c => ⟨(h c).1.trans (result_eq m c), (h c).2⟩)
    (Cert.ReferenceIdeal.Value.run (F := Ideal) m ρ)

end Cert.ReferenceIdeal.RefVal

end
-- ==== Proof.Algebra.lean ====
/-
  The algebra that joins the two programs over the extended reals.
-/
import proofs.«410390_j38027640438917_1_alg».proof.Proof.Spec

noncomputable section

namespace Cert.Bridge

open Idealize.ShloMosaic Idealize.ShloMosaic.ValueIdx

/-- The f32 zero literal denotes the real zero. -/
theorem zeroF_eq : zeroF = 0 := by
  simp [Ideal.ofBits, Ideal.ieee]

/-- The edge-count literal denotes the real 10⁶: (2²³ + 7611392)·2⁻⁴ = 16000000/16. -/
theorem cntE_eq : cntE = ((1000000 : ℝ) : EReal) := by
  simp [Ideal.ofBits, Ideal.ieee, -EReal.coe_mul]; norm_num

/-- A sum over 80 indices is the sum over the first 64 plus the sum over the last 16. -/
theorem sum_fin80_split (f : Fin 80 → EReal) :
    ∑ k : Fin 80, f k
      = (∑ k : Fin 64, f ⟨k.val, by have := k.isLt; omega⟩) + ∑ k : Fin 16, f ⟨64 + k.val, by have := k.isLt; omega⟩ :=
  Fin.sum_univ_add (M := EReal) (a := 64) (b := 16) f

/-- A finite sum of coerced reals is the coercion of the real sum. -/
theorem coe_sum_fin {n : ℕ} (s : Finset (Fin n)) (v : Fin n → ℝ) :
    ∑ e ∈ s, ((v e : ℝ) : EReal) = ((∑ e ∈ s, v e : ℝ) : EReal) := by
  induction s using Finset.induction_on with
  | empty => rw [Finset.sum_empty, Finset.sum_empty, EReal.coe_zero]
  | insert a s ha ih => rw [Finset.sum_insert ha, Finset.sum_insert ha, ih, EReal.coe_add]

/-- The real identity behind the two variances: with μ = (Σ v)/n over n = 10⁶ terms,
    (Σ (v − μ)²)/n = (Σ v²)/n − μ², because Σ (v − μ)² = Σ v² − 2μ·Σ v + n·μ². -/
theorem real_var (v : Fin 1000000 → ℝ) :
    (∑ e, (v e - (∑ e, v e) * (1 / 1000000)) * (v e - (∑ e, v e) * (1 / 1000000))) * (1 / 1000000)
      = (∑ e, v e * v e) * (1 / 1000000) - ((∑ e, v e) * (1 / 1000000)) * ((∑ e, v e) * (1 / 1000000)) := by
  generalize hS : (∑ e, v e) = S
  have hterm : ∀ e, (v e - S * (1 / 1000000)) * (v e - S * (1 / 1000000))
      = (v e * v e - (2 * (S * (1 / 1000000))) * v e) + (S * (1 / 1000000)) * (S * (1 / 1000000)) := fun e => by ring
  simp only [hterm]
  rw [Finset.sum_add_distrib, Finset.sum_sub_distrib, ← Finset.mul_sum, hS, Finset.sum_const, Finset.card_univ,
    Fintype.card_fin, nsmul_eq_mul]
  push_cast
  ring

/-- The 80-term contraction against W's row splits into the 64 node-feature terms and the 16 edge-feature terms. -/
theorem actR_eq_act (A : (⟨2, ![1000000, 64]⟩ : Shape).Idx → EReal) (Ef : (⟨2, ![1000000, 16]⟩ : Shape).Idx → EReal)
    (W : (⟨2, ![64, 80]⟩ : Shape).Idx → EReal) (b : (⟨1, ![64]⟩ : Shape).Idx → EReal)
    (W1 : (⟨2, ![64, 64]⟩ : Shape).Idx → EReal) (W2 : (⟨2, ![16, 64]⟩ : Shape).Idx → EReal)
    (B : (⟨2, ![1, 64]⟩ : Shape).Idx → EReal)
    (hW1 : ∀ (k : Fin 64) (j : Fin 64), W1 (ix2 k j) = W (ix2 j ⟨k.val, by have := k.isLt; omega⟩))
    (hW2 : ∀ (k : Fin 16) (j : Fin 64), W2 (ix2 k j) = W (ix2 j ⟨64 + k.val, by have := k.isLt; omega⟩))
    (hB : ∀ j : Fin 64, B (ix2 0 j) = b (ix1 j)) (e : Fin 1000000) (j : Fin 64) :
    actR A Ef W b e j = act A Ef W1 W2 B e j := by
  unfold actR act
  rw [sum_fin80_split, hB j]
  refine congrArg (fun s => max (s + b (ix1 j)) zeroF) ?_
  refine congrArg₂ (· + ·) (Finset.sum_congr rfl fun k _ => ?_) (Finset.sum_congr rfl fun k _ => ?_)
  · -- the first 64 indices read the node features
    rw [hW1 k j]
    dsimp only
    rw [dif_pos k.isLt]
  · -- the last 16 indices read the edge features, at index (64 + k) − 64 = k
    rw [hW2 k j]
    dsimp only
    have hk : ∀ h' : 64 + k.val - 64 < 16, (⟨64 + k.val - 64, h'⟩ : Fin 16) = k :=
      fun _ => Fin.ext (Nat.add_sub_cancel_left 64 k.val)
    rw [dif_neg (by omega), hk]

/-- The reference's mean is the kernel's: the host sum's zero start adds nothing. -/
theorem meanR_eq (u : Fin 1000000 → Fin 64 → EReal) (j : Fin 64) : meanR u j = meanK (sum1 u j) := by
  unfold meanR meanK sum1
  rw [zeroF_eq, zero_add]

/-- Over finite activations the mean of squared deviations is the mean of squares minus the squared mean. -/
theorem istdR_eq (u : Fin 1000000 → Fin 64 → EReal) (hfin : ∀ e j, ∃ r : ℝ, u e j = (r : EReal)) (j : Fin 64) :
    istdR u j = istdK (sum1 u j) (sum2 u j) := by
  unfold istdR istdK
  -- only the argument of the reciprocal square root differs: the two variances
  refine congrArg (fun t => Ideal.rsqrt (t + epsBN)) ?_
  choose v hv using fun e => hfin e j
  have hN : (1000000 : ℝ) ≠ 0 := by norm_num
  have h1 : sum1 u j = ((∑ e, v e : ℝ) : EReal) := by
    unfold sum1
    simp only [hv]
    exact coe_sum_fin _ _
  have h2 : sum2 u j = ((∑ e, v e * v e : ℝ) : EReal) := by
    unfold sum2
    simp only [hv, ← EReal.coe_mul]
    exact coe_sum_fin _ _
  have hm : meanR u j = (((∑ e, v e) * (1 / 1000000) : ℝ) : EReal) := by
    rw [meanR_eq, meanK, h1, cntE_eq, Ideal.div_coe hN, ← EReal.coe_mul]
  unfold varR
  rw [hm, meanK, h1, h2, zeroF_eq, zero_add, cntE_eq]
  simp only [Ideal.div_coe hN]
  -- every operand is now a coerced real: push the arithmetic into ℝ
  simp only [hv, ← EReal.coe_sub, ← EReal.coe_mul]
  rw [coe_sum_fin, ← EReal.coe_mul]
  exact congrArg _ (real_var v)

/-- Finite operands give finite activations. -/
theorem act_finite (A : (⟨2, ![1000000, 64]⟩ : Shape).Idx → EReal) (Ef : (⟨2, ![1000000, 16]⟩ : Shape).Idx → EReal)
    (W1 : (⟨2, ![64, 64]⟩ : Shape).Idx → EReal) (W2 : (⟨2, ![16, 64]⟩ : Shape).Idx → EReal)
    (B : (⟨2, ![1, 64]⟩ : Shape).Idx → EReal)
    (hA : ∀ i, ∃ r : ℝ, A i = (r : EReal)) (hEf : ∀ i, ∃ r : ℝ, Ef i = (r : EReal))
    (hW1 : ∀ i, ∃ r : ℝ, W1 i = (r : EReal)) (hW2 : ∀ i, ∃ r : ℝ, W2 i = (r : EReal))
    (hB : ∀ i, ∃ r : ℝ, B i = (r : EReal)) (e : Fin 1000000) (j : Fin 64) :
    ∃ r : ℝ, act A Ef W1 W2 B e j = (r : EReal) := by
  choose a ha using hA
  choose f hf using hEf
  choose w1 hw1 using hW1
  choose w2 hw2 using hW2
  choose bb hbb using hB
  -- the argument of the ramp is a real
  obtain ⟨r, hr⟩ : ∃ r : ℝ,
      ((∑ k : Fin 64, A (ix2 e k) * W1 (ix2 k j)) + ∑ k : Fin 16, Ef (ix2 e k) * W2 (ix2 k j)) + B (ix2 0 j) = (r : EReal) := by
    refine ⟨((∑ k : Fin 64, a (ix2 e k) * w1 (ix2 k j)) + ∑ k : Fin 16, f (ix2 e k) * w2 (ix2 k j)) + bb (ix2 0 j), ?_⟩
    simp only [ha, hf, hw1, hw2, hbb, ← EReal.coe_mul]
    rw [coe_sum_fin, coe_sum_fin, ← EReal.coe_add, ← EReal.coe_add]
  unfold act
  rw [hr, zeroF_eq]
  -- the larger of a real and zero is one of the two
  rcases le_total (r : EReal) 0 with h | h
  · exact ⟨0, by rw [max_eq_right h, EReal.coe_zero]⟩
  · exact ⟨r, max_eq_left h⟩

end Cert.Bridge

end
-- ==== Proof.LibGather.lean ====
/-
  A row gather read at an index.  The operand is [N, C], the start indices a column [R, 1], the result [R, C]:
  result row r is operand row idx[r], the index word read signed and clamped into the row axis.
-/
import Idealize.ShloMosaic.PureOps
import Idealize.ShloMosaic.Lib.ValueIdx

noncomputable section

namespace Cert.LibGather

open Idealize.ShloMosaic Idealize.ShloMosaic.ValueIdx

/-- The dimension numbers of a row gather: offset axis 1, collapsed axis 0, the one index component addressing
    axis 0, the index vector along axis 1, slices of one whole row. -/
abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (r, k): the operand at row idx[r, 0] (read signed, clamped into [0, N − 1]), column k. -/
theorem gather_row_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowGather N R C wf) x idx (ix2 r k)
      = x (ix2 ⟨min (idx (ix2 r (⟨0, Nat.one_pos⟩ : Fin 1))).toInt.toNat (N - 1), by omega⟩ k) := by
  unfold Host.gather
  congr 1
  -- the collapsed axis: no batching or offset coordinate, the start is the clamped index word
  have h0 : (rowGather N R C wf).start (ix2 r k) idx (0 : Fin 2) + (rowGather N R C wf).batchCoord (ix2 r k) (0 : Fin 2)
      + (rowGather N R C wf).offCoord (ix2 r k) (0 : Fin 2) = min (idx (ix2 r (⟨0, Nat.one_pos⟩ : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 r k) ⟨List.idxOf (0 : Fin 2) (rowGather N R C wf).startIndexMap,
        List.idxOf_lt_length_iff.2 (List.mem_singleton.mpr rfl)⟩ = ix2 r (⟨0, Nat.one_pos⟩ : Fin 1) := by
      funext b; refine Fin.ext ?_
      match b with
      | ⟨0, _⟩ => rfl
      | ⟨1, _⟩ => rfl
    rw [hsi]
    rfl
  -- the offset axis: the start is zero, the offset coordinate is the result's column
  have h1 : (rowGather N R C wf).start (ix2 r k) idx (1 : Fin 2) + (rowGather N R C wf).batchCoord (ix2 r k) (1 : Fin 2)
      + (rowGather N R C wf).offCoord (ix2 r k) (1 : Fin 2) = k.val := by
    have hm : (1 : Fin 2) ∉ (rowGather N R C wf).startIndexMap :=
      show (1 : Fin 2) ∉ ([0] : List (Fin 2)) by decide
    have hs : (rowGather N R C wf).start (ix2 r k) idx (1 : Fin 2) = 0 := by
      unfold GatherDims.start; rw [dif_neg hm]
    have hk : (1 : Fin 2) ∈ (rowGather N R C wf).sKept :=
      (GatherDims.mem_sKept _ _).mpr ⟨show (1 : Fin 2) ∉ ([0] : List (Fin 2)) by decide, List.not_mem_nil⟩
    have ho : (rowGather N R C wf).offCoord (ix2 r k) (1 : Fin 2) = k.val := by
      unfold GatherDims.offCoord; rw [dif_pos hk]; rfl
    rw [GatherDims.batchCoord_eq_zero _ _ _ List.not_mem_nil, hs, ho, Nat.add_zero, Nat.zero_add]
  funext a
  refine Fin.ext ?_
  match a with
  | ⟨0, _⟩ => exact h0
  | ⟨1, _⟩ => exact h1

end Cert.LibGather

end
-- ==== Proof.PreFacts.lean ====
/-
  What the precondition gives: every float operand the activations depend on is finite, every source-node index is
  a valid row, and so the out-of-range fill of the gathered rows is never taken.
-/
import proofs.«410390_j38027640438917_1_alg».proof.Defs
import proofs.«410390_j38027640438917_1_alg».proof.Proof.Gen.Pre_finite_inputs
import proofs.«410390_j38027640438917_1_alg».proof.Proof.HostDefs
import proofs.«410390_j38027640438917_1_alg».proof.Proof.LibGather
import Idealize.ShloMosaic.Lib.ReduceAll
import Idealize.ShloMosaic.Lib.StableHlo.Predicate
import Idealize.ShloMosaic.Lib.ValueIdx

noncomputable section

namespace Cert.KernelIdeal.PreFacts

open Idealize.ShloMosaic Idealize.ShloMosaic.ValueIdx Idealize.SL.Sem
open Cert.KernelIdeal Cert.KernelIdeal.HostDefs

/-! ## Words and values at one element -/

/-- The f32 pattern of +∞ denotes the top element. -/
theorem inf_eq_top : Ideal.ofBits .f32 0x7F800000#32 = (⊤ : EReal) := by simp [Ideal.ofBits, Ideal.ieee]

/-- The f32 pattern of 1 denotes the number one. -/
theorem one_eq_one : Ideal.ofBits .f32 0x3F800000#32 = (1 : EReal) := by
  simp [Ideal.ofBits, Ideal.ieee, -EReal.coe_mul]; norm_num

/-- A value whose absolute value is strictly below +∞ is a real number: max x (−x) < ⊤ excludes both infinities. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [inf_eq_top] at h'
  induction x using EReal.rec with
  | bot => simp at h'
  | coe r => exact ⟨r, rfl⟩
  | top => simp at h'

/-- The two signed comparisons of the precondition, read as a range of the signed value. -/
theorem word_range (w : BitVec 32) (h0 : IntOp.cmpi .sge w 0#32 = 1#1) (h1 : IntOp.cmpi .slt w 100000#32 = 1#1) :
    0 ≤ w.toInt ∧ w.toInt < 100000 := by
  have e0 : (0#32 : BitVec 32).toInt = 0 := by decide
  have e1 : (100000#32 : BitVec 32).toInt = 100000 := by decide
  simp only [IntOp.cmpi, StableHlo.Predicate.ofBool_eq_one_iff, BitVec.sle, BitVec.slt, decide_eq_true_eq, e0, e1] at h0 h1
  exact ⟨h0, h1⟩

/-- A word that is not negative is not below zero. -/
theorem cmpi_slt_zero (w : BitVec 32) (h : 0 ≤ w.toInt) : IntOp.cmpi .slt w 0#32 = 0#1 := by
  have e0 : (0#32 : BitVec 32).toInt = 0 := by decide
  have hf : decide (w.toInt < 0) = false := decide_eq_false (by omega)
  simp only [IntOp.cmpi, BitVec.slt, e0, hf]
  rfl

/-- A word that is not negative is at least zero. -/
theorem cmpi_sge_zero (w : BitVec 32) (h : 0 ≤ w.toInt) : IntOp.cmpi .sge w 0#32 = 1#1 := by
  have e0 : (0#32 : BitVec 32).toInt = 0 := by decide
  have ht : decide ((0 : Int) ≤ w.toInt) = true := decide_eq_true h
  simp only [IntOp.cmpi, BitVec.sle, e0, ht]
  rfl

/-- A word below the node count is at most the last row. -/
theorem cmpi_sle_last (w : BitVec 32) (h : w.toInt < 100000) : IntOp.cmpi .sle w 99999#32 = 1#1 := by
  have e9 : (99999#32 : BitVec 32).toInt = 99999 := by decide
  have ht : decide (w.toInt ≤ 99999) = true := decide_eq_true (by omega)
  simp only [IntOp.cmpi, BitVec.sle, e9, ht]
  rfl

/-! ## An and-reduction of ones -/

/-- A left fold by `and` from 1 over words that are all 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_of_all_one f l (fun n hn => h n (List.mem_cons_of_mem _ hn))

/-- A reduction by `and` from 1 of an array of ones is 1 at every result index. -/
theorem reduce_andi_of_all_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_of_all_one x _ (fun n _ => hx n)

/-! ## The precondition, conjunct by conjunct -/

/-- The precondition split once: the four float operands the activations read are real at every entry, and
    every source index is a row number, 0 ≤ · < 100000 read signed. -/
theorem pre_split (x : FVec Ideal S100000x64 .f32) (ei : IVec S2x1000000 32) (ea : FVec Ideal S1000000x16 .f32)
    (W : FVec Ideal S64x80 .f32) (b g bt : FVec Ideal S64 .f32)
    (h : Cert.Pre_finite_inputs.fn (F := Ideal) x ei ea W b g bt = fun _ => 1#1) :
    (∀ i, ∃ r : ℝ, x i = (r : EReal)) ∧ (∀ i, ∃ r : ℝ, ea i = (r : EReal)) ∧ (∀ i, ∃ r : ℝ, W i = (r : EReal))
      ∧ (∀ i, ∃ r : ℝ, b i = (r : EReal))
      ∧ ∀ e, IntOp.cmpi .sge (rowOf ei e) 0#32 = 1#1 ∧ IntOp.cmpi .slt (rowOf ei e) 100000#32 = 1#1 := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, Cert.Pre_finite_inputs.fn_part2] at h0
  obtain ⟨h1, hrow⟩ := IntOp.andi_eq_one.1 h0
  obtain ⟨h2, _⟩ := IntOp.andi_eq_one.1 h1
  obtain ⟨h3, _⟩ := IntOp.andi_eq_one.1 h2
  obtain ⟨h4, hb⟩ := IntOp.andi_eq_one.1 h3
  obtain ⟨h5, hW⟩ := IntOp.andi_eq_one.1 h4
  obtain ⟨hx, hea⟩ := IntOp.andi_eq_one.1 h5
  refine ⟨fun i => real_of_abs_lt_inf _ (Host.reduce_andi_all _ _ _ _ _ hx i),
    fun i => real_of_abs_lt_inf _ (Host.reduce_andi_all _ _ _ _ _ hea i),
    fun i => real_of_abs_lt_inf _ (Host.reduce_andi_all _ _ _ _ _ hW i),
    fun i => real_of_abs_lt_inf _ (Host.reduce_andi_all _ _ _ _ _ hb i), fun e => ?_⟩
  exact IntOp.andi_eq_one.1 (Host.reduce_andi_all _ _ _ _ _ hrow e)

/-! ## The wrapped index and the in-range mask under the range fact -/

/-- Where an index is not negative, "the index plus the count if it is below zero, else the index" is the index. -/
theorem select_wrap_apply (r z n : IVec S1000000 32) (hz : ∀ e, z e = 0#32) (hr : ∀ e, 0 ≤ (r e).toInt) (e : S1000000.Idx) :
    select (cmpi .slt r z) (addi r n) r e = r e := by
  rw [select_apply]
  show Scalar.select (IntOp.cmpi .slt (r e) (z e)) _ (r e) = r e
  rw [hz, cmpi_slt_zero _ (hr e), select_zero]

/-- With no index negative, the wrapped index column read at any position is one of the indices, unchanged. -/
theorem wrapIdx_eq (r : IVec S1000000 32) (hr : ∀ e, 0 ≤ (r e).toInt) (k : S1000000x1.Idx) : ∃ e, wrapIdx r k = r e := by
  unfold wrapIdx broadcastInDim
  exact ⟨_, select_wrap_apply r _ _ (fun _ => rfl) hr _⟩

/-- A broadcast of an array of ones is one everywhere. -/
theorem broadcastInDim_of_all_one {s t : Shape} (dims : Fin s.rank → Fin t.rank) (h : s.BroadcastsInDim t dims)
    (x : s.Idx → BitVec 1) (hx : ∀ j, x j = 1#1) (i : t.Idx) : broadcastInDim t dims h x i = 1#1 := hx _

/-- With every index a row number the in-range mask is 1 everywhere: both comparisons hold at the one entry the
    and-reduction over the unit axis meets. -/
theorem inb_wrapIdx (r : IVec S1000000 32) (hr : ∀ e, 0 ≤ (r e).toInt ∧ (r e).toInt < 100000) (i : S1000000x64.Idx) :
    inb (wrapIdx r) i = 1#1 := by
  unfold inb
  refine broadcastInDim_of_all_one _ _ _ (fun j => reduce_andi_of_all_one _ _ _ _ (fun _ => rfl) (fun k => ?_) j) i
  obtain ⟨e, he⟩ := wrapIdx_eq r (fun e => (hr e).1) k
  show IntOp.andi (IntOp.cmpi .sge (wrapIdx r k) 0#32) (IntOp.cmpi .sle (wrapIdx r k) 99999#32) = 1#1
  rw [he, cmpi_sge_zero _ (hr e).1, cmpi_sle_last _ (hr e).2]
  decide

/-- With every index a row number the fill is never selected. -/
theorem atomK_eq_gath_of (x : FVec Ideal S100000x64 .f32) (r : IVec S1000000 32)
    (hr : ∀ e, 0 ≤ (r e).toInt ∧ (r e).toInt < 100000) : atomK x r = gath x r := by
  funext i
  unfold atomK
  rw [select_apply, inb_wrapIdx r hr i, select_one]

variable (m : (ℓ : Loc nD τ sig) → Buf (Elt Ideal) ℓ)

theorem fin_x (hpre : Cert.Pre_KernelIdeal m) (c : Dev nD) : ∀ i, ∃ r : ℝ, (m ((c.tc : Thread nD τ).loc main_arg0) : S100000x64.Idx → EReal) i = (r : EReal) := by
  exact (pre_split _ _ _ _ _ _ _ (hpre c)).1
theorem fin_ea (hpre : Cert.Pre_KernelIdeal m) (c : Dev nD) : ∀ i, ∃ r : ℝ, (m ((c.tc : Thread nD τ).loc main_arg2) : S1000000x16.Idx → EReal) i = (r : EReal) := by
  exact (pre_split _ _ _ _ _ _ _ (hpre c)).2.1
theorem fin_W (hpre : Cert.Pre_KernelIdeal m) (c : Dev nD) : ∀ i, ∃ r : ℝ, (m ((c.tc : Thread nD τ).loc main_arg3) : S64x80.Idx → EReal) i = (r : EReal) := by
  exact (pre_split _ _ _ _ _ _ _ (hpre c)).2.2.1
theorem fin_b (hpre : Cert.Pre_KernelIdeal m) (c : Dev nD) : ∀ i, ∃ r : ℝ, (m ((c.tc : Thread nD τ).loc main_arg4) : S64.Idx → EReal) i = (r : EReal) := by
  exact (pre_split _ _ _ _ _ _ _ (hpre c)).2.2.2.1

/-- With every source index a valid row the fill is never taken: the kernel program's gathered rows are the plain gather. -/
theorem atomK_eq_gath (hpre : Cert.Pre_KernelIdeal m) (c : Dev nD) :
    atomK (m ((c.tc : Thread nD τ).loc main_arg0)) (rowOf (m ((c.tc : Thread nD τ).loc main_arg1)))
      = gath (m ((c.tc : Thread nD τ).loc main_arg0)) (rowOf (m ((c.tc : Thread nD τ).loc main_arg1))) := by
  have hrow := (pre_split _ _ _ _ _ _ _ (hpre c)).2.2.2.2
  exact atomK_eq_gath_of _ _ fun e => word_range _ (hrow e).1 (hrow e).2

/-- Every gathered entry is an entry of the node array, so finite when that is. -/
theorem gath_finite (x : FVec Ideal S100000x64 .f32) (r : IVec S1000000 32) (hx : ∀ i, ∃ v : ℝ, x i = (v : EReal)) :
    ∀ i, ∃ v : ℝ, gath x r i = (v : EReal) := by
  intro i
  obtain ⟨a, b, rfl⟩ : ∃ (a : Fin 1000000) (b : Fin 64), i = ix2 a b := ⟨i 0, i 1, eq_ix2 i⟩
  have wf : GatherDims.WF ⟨2, ![100000, 64]⟩ ⟨2, ![1000000, 1]⟩ ⟨2, ![1000000, 64]⟩ [1] [0] [] [0] [] 1 ![1, 64] :=
    gather_S100000x64_S1000000x1_S1000000x64_1_0_n_n_0_1_164.wf
  have e : gath x r (ix2 a b) = Host.gather (Cert.LibGather.rowGather 100000 1000000 64 wf) x (wrapIdx r) (ix2 a b) := rfl
  rw [e, Cert.LibGather.gather_row_apply (by decide) wf x (wrapIdx r) a b]
  exact hx _

/-- The edge features times 1 stay finite. -/
theorem efeat_finite (ea : FVec Ideal S1000000x16 .f32) (hea : ∀ i, ∃ v : ℝ, ea i = (v : EReal)) :
    ∀ i, ∃ v : ℝ, efeat ea i = (v : EReal) := by
  intro i
  obtain ⟨v, hv⟩ := hea i
  refine ⟨v, ?_⟩
  show ea i * Ideal.ofBits .f32 0x3F800000#32 = _
  rw [one_eq_one, mul_one, hv]

end Cert.KernelIdeal.PreFacts

end
-- ==== Proof.Join.lean ====
/-
  Under the precondition the two programs' results are one function of the arguments: the fill of the gathered rows is
  never taken; the 80-term contraction is the two panels' contractions; the means agree; and over finite activations
  the mean of squared deviations is the mean of squares minus the squared mean, so the reciprocal deviations agree.
-/
import proofs.«410390_j38027640438917_1_alg».proof.Proof.KernelValue
import proofs.«410390_j38027640438917_1_alg».proof.Proof.RefValue
import proofs.«410390_j38027640438917_1_alg».proof.Proof.Algebra
import proofs.«410390_j38027640438917_1_alg».proof.Proof.PreFacts
import proofs.«410390_j38027640438917_1_alg».proof.Proof.HostIdx

noncomputable section

namespace Cert.Proof.Join

open Idealize.ShloMosaic Idealize.ShloMosaic.TcCoe Idealize.ShloMosaic.ValueIdx Idealize.SL.Sem
open Cert.KernelIdeal Cert.KernelIdeal.HostDefs

theorem w1t_finite (W : FVec Ideal S64x80 .f32) (hW : ∀ i, ∃ v : ℝ, W i = (v : EReal)) : ∀ i, ∃ v : ℝ, w1t W i = (v : EReal) := by
  intro i
  obtain ⟨k, j, rfl⟩ : ∃ (k : Fin 64) (j : Fin 64), i = ix2 k j := ⟨i 0, i 1, eq_ix2 i⟩
  rw [HostIdx.w1t_apply]; exact hW _

theorem w2t_finite (W : FVec Ideal S64x80 .f32) (hW : ∀ i, ∃ v : ℝ, W i = (v : EReal)) : ∀ i, ∃ v : ℝ, w2t W i = (v : EReal) := by
  intro i
  obtain ⟨k, j, rfl⟩ : ∃ (k : Fin 16) (j : Fin 64), i = ix2 k j := ⟨i 0, i 1, eq_ix2 i⟩
  rw [HostIdx.w2t_apply]; exact hW _

theorem row1_finite (b : FVec Ideal S64 .f32) (hb : ∀ i, ∃ v : ℝ, b i = (v : EReal)) : ∀ i, ∃ v : ℝ, row1 b i = (v : EReal) := by
  intro i
  obtain ⟨k, j, rfl⟩ : ∃ (k : Fin 1) (j : Fin 64), i = ix2 k j := ⟨i 0, i 1, eq_ix2 i⟩
  obtain rfl : k = 0 := Subsingleton.elim _ _
  rw [HostIdx.row1_apply]; exact hb _

/-- The two results, as functions of the same arguments, agree wherever the precondition holds. -/
theorem kOut_eq_refOut (m : (ℓ : Loc nD τ sig) → Buf (Elt Ideal) ℓ) (hpre : Cert.Pre_KernelIdeal m) (c : Dev nD) :
    KVal.kOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))
      = Cert.ReferenceIdeal.RefVal.refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  have hA := PreFacts.atomK_eq_gath m hpre c
  have hact : KVal.actOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      = Cert.ReferenceIdeal.RefVal.actOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
    funext e j
    show Cert.Bridge.act _ _ _ _ _ e j = Cert.Bridge.actR _ _ _ _ e j
    rw [hA]
    exact (Cert.Bridge.actR_eq_act _ _ _ _ _ _ _ (HostIdx.w1t_apply _) (HostIdx.w2t_apply _) (HostIdx.row1_apply _) e j).symm
  have hfin : ∀ e j, ∃ r : ℝ, Cert.ReferenceIdeal.RefVal.actOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) e j = (r : EReal) := by
    intro e j
    rw [← hact]
    refine Cert.Bridge.act_finite _ _ _ _ _ ?_ (PreFacts.efeat_finite _ (PreFacts.fin_ea m hpre c))
      (w1t_finite _ (PreFacts.fin_W m hpre c)) (w2t_finite _ (PreFacts.fin_W m hpre c)) (row1_finite _ (PreFacts.fin_b m hpre c)) e j
    rw [hA]
    exact PreFacts.gath_finite _ _ (PreFacts.fin_x m hpre c)
  unfold KVal.kOut Cert.ReferenceIdeal.RefVal.refOut
  rw [hact]
  refine congrArg (tail _ _) (funext fun i => ?_)
  rw [Cert.Bridge.meanR_eq, Cert.Bridge.istdR_eq _ hfin]

end Cert.Proof.Join

end
-- ==== Proof.lean ====
/-
  The certificate's five claims.

  Both programs compute, for every edge, the ramp of one linear map of the gathered node row and the edge features,
  normalise it per channel by the batch mean and the batch variance over all 10⁶ edges, and average the normalised
  rows over each destination node before adding the node features. The kernel program takes the variance as the mean
  of squares minus the squared mean, from two column sums accumulated block by block; the reference as the mean of
  the squared deviations. Over finite activations these are one real number; with every source index a valid row the
  gathered rows are the same; the rest is the same chain of operations on both sides.

  The frames of the two kernel programs are the generated ones; the reference's frame is its generated run with the
  result dropped; the idealization rewrote nothing.
-/
import proofs.«410390_j38027640438917_1_alg».proof.Defs
import proofs.«410390_j38027640438917_1_alg».proof.Proof.Gen.Kernel
import proofs.«410390_j38027640438917_1_alg».proof.Proof.Gen.Kernel.Skeleton
import proofs.«410390_j38027640438917_1_alg».proof.Proof.Gen.Kernel.Launch
import proofs.«410390_j38027640438917_1_alg».proof.Proof.Gen.Kernel.Points
import proofs.«410390_j38027640438917_1_alg».proof.Proof.Gen.Kernel.Frame
import proofs.«410390_j38027640438917_1_alg».proof.Proof.Gen.KernelIdeal
import proofs.«410390_j38027640438917_1_alg».proof.Proof.Gen.KernelIdeal.Skeleton
import proofs.«410390_j38027640438917_1_alg».proof.Proof.Gen.KernelIdeal.Launch
import proofs.«410390_j38027640438917_1_alg».proof.Proof.Gen.KernelIdeal.Points
import proofs.«410390_j38027640438917_1_alg».proof.Proof.Gen.KernelIdeal.Frame
import proofs.«410390_j38027640438917_1_alg».proof.Proof.Gen.ReferenceIdeal
import proofs.«410390_j38027640438917_1_alg».proof.Proof.Gen.ReferenceIdeal.Run
import proofs.«410390_j38027640438917_1_alg».proof.Proof.Gen.Pre_finite_inputs
import proofs.«410390_j38027640438917_1_alg».proof.Proof.RunK
import proofs.«410390_j38027640438917_1_alg».proof.Proof.KernelValue
import proofs.«410390_j38027640438917_1_alg».proof.Proof.RefValue
import proofs.«410390_j38027640438917_1_alg».proof.Proof.Join
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at one function of arguments that agree. -/
theorem algebraic : Cert.algebraic_KernelIdeal_ReferenceIdeal := by
  intro m ρ m' ρ' hpre hagree
  refine ⟨fun c => Cert.KernelIdeal.KVal.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KVal.W7_eq m ρ c), (h c).2⟩) (Cert.KernelIdeal.RunK.run (F := Ideal) m ρ)
  · refine (θ_run Cert.ReferenceIdeal.defs _ _).mono (fun _ h c => ⟨(h c).1.trans ?_, (h c).2⟩)
      (Cert.ReferenceIdeal.RefVal.run m' ρ')
    rw [(hagree c).1, (hagree c).2.1, (hagree c).2.2.1, (hagree c).2.2.2.1, (hagree c).2.2.2.2.1, (hagree c).2.2.2.2.2.1,
      (hagree c).2.2.2.2.2.2]
    exact (Cert.Proof.Join.kOut_eq_refOut m hpre c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
